-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S64 : Shape := ⟨1, ![64]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel

variable [Facts]

def fn {F : FTy → Type} [FloatOps F] (main_arg0 : FVec F S64x3x512x512 .f32) (main_arg1 : IVec S64 32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  main_v3
-- ==== Kernel.lean ====
abbrev S64x3x512x512 : Shape := ⟨4, ![64, 3, 512, 512]⟩
abbrev S64 : Shape := ⟨1, ![64]⟩
abbrev S64x1536x512 : Shape := ⟨3, ![64, 1536, 512]⟩
abbrev S1x1536x128 : Shape := ⟨3, ![1, 1536, 128]⟩
abbrev S1 : Shape := ⟨1, ![1]⟩
abbrev S1536x128 : Shape := ⟨2, ![1536, 128]⟩
abbrev S1536x64 : Shape := ⟨2, ![1536, 64]⟩
abbrev S1536x32 : Shape := ⟨2, ![1536, 32]⟩
abbrev S1536x16 : Shape := ⟨2, ![1536, 16]⟩
abbrev S1536x8 : Shape := ⟨2, ![1536, 8]⟩
abbrev S1536x4 : Shape := ⟨2, ![1536, 4]⟩
abbrev S1536x2 : Shape := ⟨2, ![1536, 2]⟩
abbrev S1536x1 : Shape := ⟨2, ![1536, 1]⟩

abbrev nBuf : Space → Nat
  | .hbm => 4
  | .vmem => 4
  | .smem => 1
  | _ => 0

abbrev bufTy : (tb : Table) → Fin (tcTables nBuf tb) → BufTy
  | .hbm, ⟨0, _⟩ => ⟨S64x3x512x512, .f32⟩
  | .hbm, ⟨1, _⟩ => ⟨S64x1536x512, .f32⟩
  | .hbm, ⟨2, _⟩ => ⟨S64x1536x512, .f32⟩
  | .hbm, ⟨3, _⟩ => ⟨S64x3x512x512, .f32⟩
  | .local _ .vmem, ⟨0, _⟩ => ⟨S1x1536x128, .f32⟩
  | .local _ .vmem, ⟨1, _⟩ => ⟨S1x1536x128, .f32⟩
  | .local _ .vmem, ⟨2, _⟩ => ⟨S1x1536x128, .f32⟩
  | .local _ .vmem, ⟨3, _⟩ => ⟨S1x1536x128, .f32⟩
  | .local _ .smem, ⟨0, _⟩ => ⟨S64, .i32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![64, 4], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .sgt v1 c0_i32_1
  let v_true : BitVec 1 := 1#1
  let v6 : BitVec 1 := Scalar.xori v5 v_true
  let v7 : BitVec 32 := Scalar.extui v6
  let c0_i32_2 : BitVec 32 := 0#32
  let v8 : BitVec 1 := Scalar.cmpi .ne v7 c0_i32_2
  v8

def cc0_transform_0 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S64) ![v0.toNat] S1.size (k0_off1_inb i)) numel1_S1
  let c0_i32 : BitVec 32 := 0#32
  let v2 : BitVec 1 := Scalar.cmpi .sgt v1 c0_i32
  let c3_i32 : BitVec 32 := 3#32
  let v3 : BitVec 32 := Scalar.subi c3_i32 arg1
  let v4 : BitVec 32 := Scalar.select v2 v3 arg1
  let c0_i32_0 : BitVec 32 := 0#32
  let c0_i32_1 : BitVec 32 := 0#32
  ![arg0.toNat, c0_i32_0.toNat, v4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1536x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1536x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S64x3x512x512_S64x1536x512 : S64x3x512x512.ShapeCasts S64x1536x512
  numel1_S1 : S1.numel = 1
  inb_S1x1536x128_S1x1536x128_0_0_0 : ∀ a, (![0, 0, 0] : Fin 3 → Nat) a + S1x1536x128.size a ≤ S1x1536x128.size a
  h_S1x1536x128 : 0 < S1x1536x128.numel
  shapeCasts_S1x1536x128_S1536x128 : S1x1536x128.ShapeCasts S1536x128
  slices_S1536x128_o0_0_S1536x64 : S1536x128.Slices ![0, 0] S1536x64
  slices_S1536x128_o0_64_S1536x64 : S1536x128.Slices ![0, 64] S1536x64
  slices_S1536x64_o0_0_S1536x32 : S1536x64.Slices ![0, 0] S1536x32
  slices_S1536x64_o0_32_S1536x32 : S1536x64.Slices ![0, 32] S1536x32
  slices_S1536x32_o0_0_S1536x16 : S1536x32.Slices ![0, 0] S1536x16
  slices_S1536x32_o0_16_S1536x16 : S1536x32.Slices ![0, 16] S1536x16
  slices_S1536x16_o0_0_S1536x8 : S1536x16.Slices ![0, 0] S1536x8
  slices_S1536x16_o0_8_S1536x8 : S1536x16.Slices ![0, 8] S1536x8
  slices_S1536x8_o0_0_S1536x4 : S1536x8.Slices ![0, 0] S1536x4
  slices_S1536x8_o0_4_S1536x4 : S1536x8.Slices ![0, 4] S1536x4
  slices_S1536x4_o0_0_S1536x2 : S1536x4.Slices ![0, 0] S1536x2
  slices_S1536x4_o0_2_S1536x2 : S1536x4.Slices ![0, 2] S1536x2
  slices_S1536x2_o0_0_S1536x1 : S1536x2.Slices ![0, 0] S1536x1
  slices_S1536x2_o0_1_S1536x1 : S1536x2.Slices ![0, 1] S1536x1
  concatenates_S1536x1_S1536x1_S1536x2_d1 : Shape.Concatenates [S1536x1, S1536x1] S1536x2 1
  concatenates_S1536x2_S1536x2_S1536x4_d1 : Shape.Concatenates [S1536x2, S1536x2] S1536x4 1
  concatenates_S1536x4_S1536x4_S1536x8_d1 : Shape.Concatenates [S1536x4, S1536x4] S1536x8 1
  concatenates_S1536x8_S1536x8_S1536x16_d1 : Shape.Concatenates [S1536x8, S1536x8] S1536x16 1
  concatenates_S1536x16_S1536x16_S1536x32_d1 : Shape.Concatenates [S1536x16, S1536x16] S1536x32 1
  concatenates_S1536x32_S1536x32_S1536x64_d1 : Shape.Concatenates [S1536x32, S1536x32] S1536x64 1
  concatenates_S1536x64_S1536x64_S1536x128_d1 : Shape.Concatenates [S1536x64, S1536x64] S1536x128 1
  shapeCasts_S1536x128_S1x1536x128 : S1536x128.ShapeCasts S1x1536x128
  shapeCasts_S64x1536x512_S64x3x512x512 : S64x1536x512.ShapeCasts S64x3x512x512
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1536x128.size a ≤ S64x1536x512.size a
  hwx0_1 : ∀ i : grid0.Coords, EltTy.bits .f32 = 32 ∨ (Rect.block (s := S64x1536x512) S1x1536x128.size (cc0_transform_1 i) (hinb0_1 i)).WholeWords (EltTy.packing .f32)

variable [Facts₀]

abbrev spec0_0 : Pipeline.WinSpec sig grid0.rank :=
  Pipeline.WinSpec.ofSpec (Memref.whole main_v0) S1x1536x128.size reads0_0 false false 2 stage0_0 sem0_0 nbuf0_0 hstage0_0

abbrev spec0_1 : Pipeline.WinSpec sig grid0.rank :=
  Pipeline.WinSpec.ofSpec (Memref.whole main_v1) S1x1536x128.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 k0_off1_inb numel1_S1 pf | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | ⟨_ + 2, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1536x128.size a ≤ S64x1536x512.size a), EltTy.bits .f32 = 32 ∨ (Rect.block (s := S64x1536x512) S1x1536x128.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | ⟨_ + 2, h⟩ => absurd h (Nat.not_lt.2 (Nat.le_add_left _ _))
abbrev idle0 (pf : pre0.Contents (Elt F)) : Fin 2 → grid0.Coords → Bool := fun | 0 => fun _ => false | 1 => fun i => !(k0_cond1 (pf.atD 0 (k0_off1 i)) == 1#1) && !(k0_cond2 (pf.atD 0 (k0_off1 i)) == 1#1) | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S64x3x512x512 : Shape := ⟨4, ![64, 3, 512, 512]⟩
abbrev S64 : Shape := ⟨1, ![64]⟩
abbrev S_ : Shape := ⟨0, ![]⟩
abbrev S64x1x1x1 : Shape := ⟨4, ![64, 1, 1, 1]⟩

abbrev nBuf : Space → Nat
  | .hbm => 9
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S64, .i32⟩
  | .hbm, ⟨2, _⟩ => ⟨S64x3x512x512, .f32⟩
  | .hbm, ⟨3, _⟩ => ⟨S_, .i32⟩
  | .hbm, ⟨4, _⟩ => ⟨S64, .i32⟩
  | .hbm, ⟨5, _⟩ => ⟨S64, .i1⟩
  | .hbm, ⟨6, _⟩ => ⟨S64x1x1x1, .i1⟩
  | .hbm, ⟨7, _⟩ => ⟨S64x3x512x512, .i1⟩
  | .hbm, ⟨8, _⟩ => ⟨S64x3x512x512, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1x1x1_0 : S64.BroadcastsInDim S64x1x1x1 (![0] : Fin 1 → Fin S64x1x1x1.rank)
  bcast_S64x1x1x1_S64x3x512x512_0_1_2_3 : S64x1x1x1.BroadcastsInDim S64x3x512x512 (![0, 1, 2, 3] : Fin 4 → Fin S64x3x512x512.rank)

variable [Facts₀]

class Facts : Prop extends Facts₀ where

variable [Facts]
-- ==== Proof.WFlipTables.lean ====
/-
  The mask table and the two windows' block indices.

  The kernel's grid is 64 × 4: point (b, j) handles image b and the j-th block of 128 columns. The output window's
  block index is (b, 0, j). The input window's is (b, 0, j') where j' = 3 - j when the b-th mask word is positive (as
  a signed 32-bit integer) and j' = j otherwise: either way j' < 4, so whatever the table holds every block lies
  inside the 64 × 1536 × 512 array and the pipeline's side condition on the table's contents holds of ALL contents.
  Exactly one of the body's two guarded stores fires at every point (the guards are "the word is positive" and its
  negation), so the output window is idle nowhere.
-/
import proofs.«428787_j71734543777923_2_alg».proof.Proof.Gen.Kernel.Launch
import proofs.«428787_j71734543777923_2_alg».proof.Proof.Gen.Kernel.Skeleton

noncomputable section

namespace Cert.Kernel.Flip

open Cert.Kernel Cert.Kernel.Gen
open Idealize.ShloMosaic Idealize.SL.Sem

variable {F : FTy → Type} [FloatOps F]

/-- The body's two guards are complementary: the first is "the word is positive", the second its negation. -/
theorem cond2_eq (x : BitVec 32) : (k0_cond2 x = 1#1) ↔ ¬ (k0_cond1 x = 1#1) := by
  dsimp only [k0_cond1, k0_cond2]
  generalize Scalar.cmpi .sgt x 0#32 = b
  revert b; decide

/-- The mask word the index map and the body read at image `b`: the table's element there. -/
abbrev word (pf : pre0.Contents (Elt F)) (i : grid0.Coords) : BitVec 32 := pf.atD 0 (k0_off1 i)

/-- The input block's column-block index at point `i`: mirrored when the word is positive. -/
def srcCol (x : BitVec 32) (j : Nat) : Nat := if k0_cond1 x = 1#1 then 3 - j else j

theorem srcCol_lt (x : BitVec 32) {j : Nat} (hj : j < 4) : srcCol x j < 4 := by
  unfold srcCol; split <;> omega

/-- The body's (and the index map's) read of the mask at image `b` is inside the 64-word table. -/
theorem word_inb (i : grid0.Coords) : ∀ a, k0_off1 i a + 1 ≤ (pre0.ref 0).ty.shape.size a :=
  fun a => by fin_cases a; exact k0_off1_inb i 0

/-- The word the index map loads is the table's element at image `b`. -/
theorem at_eq_word (pf : pre0.Contents (Elt F)) (i : grid0.Coords) :
    pf.at 0 (Rect.unit (s := S64) (k0_off1 i) S1.size (k0_off1_inb i)) numel1_S1 = word pf i := by
  unfold word Pipeline.Prefetch.Contents.atD
  split
  · rfl
  · next hn => exact absurd (word_inb i) hn

/-- The index map's arithmetic on abstract words: the select between `3 - j` and `j`. -/
theorem transform0_aux (b : BitVec 1) (n j : Nat) (h0 : n < 64) (h1 : j < 4) :
    (![(BitVec.ofNat 32 n).toNat, (0#32).toNat,
        (Scalar.select b (Scalar.subi (3#32) (BitVec.ofNat 32 j)) (BitVec.ofNat 32 j)).toNat] : Fin 3 → Nat)
      = ![n, 0, if Scalar.cmpi CmpIPredicate.ne (Scalar.extui b) 0#32 = 1#1 then 3 - j else j] := by
  have hn : (BitVec.ofNat 32 n).toNat = n := by rw [BitVec.toNat_ofNat]; exact Nat.mod_eq_of_lt (by omega)
  rw [hn]
  have hb : b = 0#1 ∨ b = 1#1 := by revert b; decide
  have hj : j = 0 ∨ j = 1 ∨ j = 2 ∨ j = 3 := by omega
  rcases hb with rfl | rfl <;> rcases hj with rfl | rfl | rfl | rfl <;> rfl

/-- The input window's block index in closed form: image `b`, the one row block, the column block `srcCol`. -/
theorem transform0_eq (pf : pre0.Contents (Elt F)) (i : grid0.Coords) :
    cc0_transform_0 k0_off1_inb numel1_S1 pf i = ![(i 0).val, 0, srcCol (word pf i) (i 1).val] := by
  have h0 : (i 0).val < 64 := (i 0).isLt
  have h1 : (i 1).val < 4 := (i 1).isLt
  have hw : pf.at 0 (Rect.unit (s := S64) ![(Scalar.indexCast (BitVec.ofNat 32 (i 0).val)).toNat] S1.size (k0_off1_inb i)) numel1_S1
      = word pf i := at_eq_word pf i
  unfold cc0_transform_0
  dsimp only
  rw [hw]
  unfold srcCol k0_cond1
  dsimp only
  exact transform0_aux _ _ _ h0 h1

/-- Every input block lies inside the array, whatever the table holds: the pipeline's side condition on the table's
    contents holds of all contents. -/
theorem ok_all (pf : pre0.Contents (Elt F)) : ok0 pf := by
  unfold ok0
  intro i
  refine ⟨?_, Or.inl rfl⟩
  rw [transform0_eq]
  have h0 : (i 0).val < 64 := (i 0).isLt
  have h1 := srcCol_lt (word pf i) (i 1).isLt
  intro a
  fin_cases a
  · show ((i 0).val + 1) * 1 ≤ 64; omega
  · show (0 + 1) * 1536 ≤ 1536; omega
  · show (srcCol (word pf i) (i 1).val + 1) * 128 ≤ 512; omega

/-- The output window is idle at no point: one of the two guarded stores fires. -/
theorem idle_out (pf : pre0.Contents (Elt F)) (i : grid0.Coords) : idle0 pf 1 i = false := by
  show (!(k0_cond1 (word pf i) == 1#1) && !(k0_cond2 (word pf i) == 1#1)) = false
  by_cases h : k0_cond1 (word pf i) = 1#1
  · simp [h]
  · have h2 := (cond2_eq (word pf i)).mpr h
    simp [h2]

end Cert.Kernel.Flip

end
-- ==== Proof.WFlipBlock.lean ====
/-
  What the body's mirrored branch stores, as a function of the input block it loaded.

  The branch splits the 1536 × 128 block's lanes in halves, recursively down to single lanes, and concatenates the
  pieces back in the opposite order at every level: the stored block is the loaded block with its 128 lanes mirrored,
  lane l reading lane 127 - l of the same row. The other branch stores the loaded block as it is.
-/
import proofs.«428787_j71734543777923_2_alg».proof.Proof.Gen.Kernel.Skeleton
import Idealize.ShloMosaic.Lib.Pipeline.Value
import Idealize.ShloMosaic.Lib.ValueIdx
import Idealize.ShloMosaic.Lib.ValueLayout

noncomputable section

namespace Cert.Kernel.Flip

open Cert.Kernel Cert.Kernel.Gen
open Idealize.ShloMosaic Idealize.ShloMosaic.ValueIdx

variable {F : FTy → Type} [FloatOps F]

/-! ## Mirroring the lanes of a block, and one level of the half-and-swap tree -/

section Lanes
variable {α : Type} {m : Nat}

/-- A block of `m` rows and `k` lanes with its lanes mirrored: lane `c` reads lane `k - 1 - c` of the same row. -/
def revLanes {k : Nat} (x : (⟨2, ![m, k]⟩ : Shape).Idx → α) : (⟨2, ![m, k]⟩ : Shape).Idx → α :=
  fun j => x (ix2 (j 0) ⟨k - 1 - (j 1).val, by have := idx2_lt1 j; omega⟩)

/-- The mirrored block read by coordinates. -/
theorem revLanes_apply {k : Nat} (x : (⟨2, ![m, k]⟩ : Shape).Idx → α) (r : Fin m) (c : Fin k) :
    revLanes x (ix2 r c) = x (ix2 r ⟨k - 1 - c.val, by have := c.isLt; omega⟩) := rfl

/-- The bottom of the tree: a two-lane block's right lane followed by its left lane is the block mirrored. At lane 0
    the concatenation reads the first piece, lane 1 of the block; at lane 1 the second piece, lane 0 of the block. -/
theorem swap_lanes (y : (⟨2, ![m, 2]⟩ : Shape).Idx → α)
    (h1 : (⟨2, ![m, 2]⟩ : Shape).Slices ![0, 1] ⟨2, ![m, 1]⟩) (h0 : (⟨2, ![m, 2]⟩ : Shape).Slices ![0, 0] ⟨2, ![m, 1]⟩)
    (hc : Shape.Concatenates [(⟨2, ![m, 1]⟩ : Shape), ⟨2, ![m, 1]⟩] ⟨2, ![m, 2]⟩ 1) :
    concatenate ⟨2, ![m, 2]⟩ 1 [⟨⟨2, ![m, 1]⟩, extractStridedSlice ⟨2, ![m, 1]⟩ ![0, 1] y h1⟩,
      ⟨⟨2, ![m, 1]⟩, extractStridedSlice ⟨2, ![m, 1]⟩ ![0, 0] y h0⟩] hc = revLanes y := by
  funext j
  obtain ⟨r, c, rfl⟩ : ∃ r c, j = ix2 r c := ⟨_, _, eq_ix2 j⟩
  have hc2 : c.val < 2 := c.isLt
  by_cases hlt : c.val < 1
  · refine (concatenate_pair_apply_left (t := ⟨2, ![m, 2]⟩) (s₁ := ⟨2, ![m, 1]⟩) (s₂ := ⟨2, ![m, 1]⟩) 1 _ _ hc (ix2 r c) rfl
      (ix2 (n1 := 1) r ⟨c.val, hlt⟩) (fun b => match b with | ⟨0, _⟩ => rfl | ⟨1, _⟩ => rfl)).trans ?_
    refine (slice2_axis1_apply 1 y h1 r ⟨c.val, hlt⟩ ⟨2 - 1 - c.val, by omega⟩ (by show 2 - 1 - c.val = 1 + c.val; omega)).trans ?_
    rfl
  · refine (concatenate_pair_apply_right (t := ⟨2, ![m, 2]⟩) (s₁ := ⟨2, ![m, 1]⟩) (s₂ := ⟨2, ![m, 1]⟩) 1 _ _ hc (ix2 r c) rfl rfl
      (ix2 (n1 := 1) r ⟨c.val - 1, by omega⟩)
      (fun b => match b with | ⟨0, _⟩ => fun _ => rfl | ⟨1, _⟩ => fun h => absurd rfl h)
      (by show c.val - 1 + 1 = c.val; omega)).trans ?_
    refine (slice2_axis1_apply 0 y h0 r ⟨c.val - 1, by omega⟩ ⟨2 - 1 - c.val, by omega⟩ (by show 2 - 1 - c.val = 0 + (c.val - 1); omega)).trans ?_
    rfl

/-- One level of the tree: the right half mirrored followed by the left half mirrored is the whole block mirrored.
    With `k = n + n` lanes, a lane `c < n` of the concatenation is lane `c` of the mirrored right half, which is lane
    `n + (n - 1 - c) = k - 1 - c` of the block; a lane `c ≥ n` is lane `c - n` of the mirrored left half, which is lane
    `n - 1 - (c - n) = k - 1 - c` of the block. -/
theorem mirror_halves {n k : Nat} (z : (⟨2, ![m, k]⟩ : Shape).Idx → α)
    (h1 : (⟨2, ![m, k]⟩ : Shape).Slices ![0, n] ⟨2, ![m, n]⟩) (h0 : (⟨2, ![m, k]⟩ : Shape).Slices ![0, 0] ⟨2, ![m, n]⟩)
    (hc : Shape.Concatenates [(⟨2, ![m, n]⟩ : Shape), ⟨2, ![m, n]⟩] ⟨2, ![m, k]⟩ 1) :
    concatenate ⟨2, ![m, k]⟩ 1 [⟨⟨2, ![m, n]⟩, revLanes (extractStridedSlice ⟨2, ![m, n]⟩ ![0, n] z h1)⟩,
      ⟨⟨2, ![m, n]⟩, revLanes (extractStridedSlice ⟨2, ![m, n]⟩ ![0, 0] z h0)⟩] hc = revLanes z := by
  funext j
  obtain ⟨r, c, rfl⟩ : ∃ r c, j = ix2 r c := ⟨_, _, eq_ix2 j⟩
  have hck : c.val < k := c.isLt
  -- the two halves' extents add up to the block's
  have hk : k = n + n := by
    have e := hc.2.2
    simp at e
    omega
  by_cases hlt : c.val < n
  · refine (concatenate_pair_apply_left (t := ⟨2, ![m, k]⟩) (s₁ := ⟨2, ![m, n]⟩) (s₂ := ⟨2, ![m, n]⟩) 1 _ _ hc (ix2 r c) rfl
      (ix2 (n1 := n) r ⟨c.val, hlt⟩) (fun b => match b with | ⟨0, _⟩ => rfl | ⟨1, _⟩ => rfl)).trans ?_
    refine (revLanes_apply _ r ⟨c.val, hlt⟩).trans ?_
    refine (slice2_axis1_apply n z h1 r _ ⟨k - 1 - c.val, by omega⟩ (by show k - 1 - c.val = n + (n - 1 - c.val); omega)).trans ?_
    rfl
  · refine (concatenate_pair_apply_right (t := ⟨2, ![m, k]⟩) (s₁ := ⟨2, ![m, n]⟩) (s₂ := ⟨2, ![m, n]⟩) 1 _ _ hc (ix2 r c) rfl rfl
      (ix2 (n1 := n) r ⟨c.val - n, by omega⟩)
      (fun b => match b with | ⟨0, _⟩ => fun _ => rfl | ⟨1, _⟩ => fun h => absurd rfl h)
      (by show c.val - n + n = c.val; omega)).trans ?_
    refine (revLanes_apply _ r ⟨c.val - n, by omega⟩).trans ?_
    refine (slice2_axis1_apply 0 z h0 r _ ⟨k - 1 - c.val, by omega⟩ (by show k - 1 - c.val = 0 + (n - 1 - (c.val - n)); omega)).trans ?_
    rfl

/-- A two-piece concatenation depends on its pieces only through their values: equal pieces give equal results. -/
theorem concatenate_pair_congr {t s₁ s₂ : Shape} (a : Fin t.rank) {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁; subst e₂; rfl

end Lanes

/-- The value the mirrored branch stores, from the input block it loaded: the body's pure operations in order (the
    half-and-swap tree over the lanes), as the body's run names them. -/
def mirroredBlock (v9 : Vec F S1x1536x128 .f32) : FVec F S1x1536x128 .f32 :=
  let v11 := k0_pay4 v9
  let v13 := k0_pay6 v9
  let v61 := k0_pay9 v9
  let v62 := k0_pay10 v9
  let v64 := k0_pay12 v9
  let v65 := k0_pay13 v9
  let v107 := k0_pay14 v61 v62 v64 v65
  let v108 := k0_pay15 v13
  let v110 := k0_pay17 v13
  let v122 := k0_pay20 v13
  let v123 := k0_pay21 v13
  let v124 := k0_pay22 v13
  let v125 := k0_pay23 v13
  let v154 := k0_pay24 v110 v122 v123 v124 v125
  let v177 := k0_pay26 v108
  let v178 := k0_pay27 v108
  let v180 := k0_pay29 v108
  let v184 := k0_pay30 v108
  let v185 := k0_pay31 v108
  let v201 := k0_pay32 v107 v154 v177 v178 v180 v184 v185
  let v202 := k0_pay33 v11
  let v204 := k0_pay35 v11
  let v228 := k0_pay38 v11
  let v239 := k0_pay40 v11
  let v240 := k0_pay41 v11
  let v244 := k0_pay42 v11
  let v245 := k0_pay43 v11
  let v296 := k0_pay44 v204 v228 v239 v240 v244 v245
  let v297 := k0_pay45 v202
  let v299 := k0_pay47 v202
  let v301 := k0_pay49 v202
  let v303 := k0_pay51 v202
  let v304 := k0_pay52 v202
  let v305 := k0_pay53 v202
  let v343 := k0_pay54 v299 v301 v303 v304 v305
  let v344 := k0_pay55 v297
  let v356 := k0_pay57 v297
  let v365 := k0_pay58 v297
  k0_pay1 v201 v296 v343 v344 v356 v365

/-- The mirrored lane. -/
def mirrorLane (l : Fin 128) : Fin 128 := ⟨127 - l.val, by omega⟩

attribute [local congr] concatenate_pair_congr

/-- The whole tree at once. Every concatenation of the seven levels (64, 32, …, 1 of them, bottom to top) is one of the
    two cases above, so from the leaves up each subtree is its block of lanes mirrored, and the root is the 1536 × 128
    view of the loaded block mirrored, viewed back as 1 × 1536 × 128. -/
theorem mirroredBlock_eq (v9 : Vec F S1x1536x128 .f32) :
    mirroredBlock v9 = shapeCast S1x1536x128 (revLanes (shapeCast S1536x128 v9 shapeCasts_S1x1536x128_S1536x128))
      shapeCasts_S1536x128_S1x1536x128 := by
  simp only [mirroredBlock, k0_pay1, k0_pay3, k0_pay4, k0_pay5, k0_pay6, k0_pay7, k0_pay8, k0_pay9, k0_pay10, k0_pay11,
    k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41,
    k0_pay42, k0_pay43, k0_pay44, k0_pay45, k0_pay46, k0_pay47, k0_pay48, k0_pay49, k0_pay50, k0_pay51,
    k0_pay52, k0_pay53, k0_pay54, k0_pay55, k0_pay56, k0_pay57, k0_pay58,
    swap_lanes, mirror_halves]

/-- The mirrored branch stores the loaded block with its lanes mirrored: row `r`, lane `l` reads lane `127 - l`. -/
theorem mirroredBlock_apply (v9 : Vec F S1x1536x128 .f32) (u : Fin 1) (r : Fin 1536) (l : Fin 128) :
    mirroredBlock v9 (ix3 u r l) = v9 (ix3 (0 : Fin 1) r (mirrorLane l)) := by
  -- the added unit axis, then the mirror, then the dropped unit axis, each read at its coordinates
  rw [mirroredBlock_eq]
  refine (shapeCast_ab_1ab_apply _ _ u r l).trans ?_
  refine (revLanes_apply _ r l).trans ?_
  exact shapeCast_1ab_ab_apply v9 _ r _

/-- The other branch stores the loaded block as it is (a cast to 1536 × 128 and back). -/
theorem copiedBlock_eq (v9 : Vec F S1x1536x128 .f32) : k0_pay2 v9 = v9 := by
  unfold k0_pay2
  exact shapeCast_shapeCast v9 _ _

end Cert.Kernel.Flip

end
-- ==== Proof.WFlipBody.lean ====
/-
  The kernel body's triple, at a symbolic grid point and on symbolic whole memrefs.

  The body loads the mask word of image b from the table, and then exactly one of its two guarded stores fires:
  when the word is positive the output buffer is overwritten whole with the input block's lane mirror, otherwise with
  the input block itself. The table and the input buffer are left as found.
-/
import proofs.«428787_j71734543777923_2_alg».proof.Proof.WFlipTables
import proofs.«428787_j71734543777923_2_alg».proof.Proof.WFlipBlock
import Idealize.ShloMosaic.Lib.Pipeline.FrameBody
import Idealize.ShloMosaic.Lib.Pipeline.Value
import Idealize.ShloMosaic.Lib.Pipeline.Kit
import Idealize.ShloMosaic.Lib.Tactic

noncomputable section

namespace Cert.Kernel.Flip

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table's index of image `b`, the point's first coordinate. -/
def maskIdx (i : grid0.Coords) : S64.Idx := fun a => ⟨(i 0).val, by fin_cases a; exact (i 0).isLt⟩

/-- The whole-block rectangle the body's loads and stores go through. -/
abbrev blockRect : Rect S1x1536x128 := Rect.unit (s := S1x1536x128) ![0, 0, 0] S1x1536x128.size inb_S1x1536x128_S1x1536x128_0_0_0

/-- The one-word rectangle of the table the body's scalar load goes through at point `i`. -/
abbrev wordRect (i : grid0.Coords) : Rect S64 := Rect.unit (s := S64) (k0_off1 i) S1.size (k0_off1_inb i)

/-- The mask word the body loads at point `i` from a table reading `T`. -/
def maskWord (T : S64.Idx → Elt F .i32) (i : grid0.Coords) : BitVec 32 :=
  View.ld T (wordRect i) (Shape.Idx.first (numel1_S1.symm ▸ Nat.one_pos))

/-- What the body leaves in the output buffer, from the mask word and the input block: the lane mirror when the word
    is positive, the block itself otherwise. -/
def outBlock (w : BitVec 32) (x : Vec F S1x1536x128 .f32) : FVec F S1x1536x128 .f32 :=
  if k0_cond1 w = 1#1 then mirroredBlock x else k0_pay2 x

theorem zero3 : (![0, 0, 0] : Fin 3 → Nat) = fun _ => 0 := funext fun a => by fin_cases a <;> rfl

/-- A load through the whole-block rectangle reads the block. -/
theorem ld_block (x : Vec F S1x1536x128 .f32) : View.ld x blockRect = x :=
  View.ld_unit_zero (S := S1x1536x128) zero3 _ x

/-- The loaded word is the table's element at image `b`. -/
theorem maskWord_eq (T : S64.Idx → Elt F .i32) (i : grid0.Coords) : maskWord T i = T (maskIdx i) := by
  unfold maskWord View.ld
  congr 1
  funext a
  apply Fin.ext
  fin_cases a
  have hx : ((Shape.Idx.first (numel1_S1.symm ▸ Nat.one_pos) : (wordRect i).shape.Idx) (0 : Fin 1)).val = 0 := rfl
  show k0_off1 i 0 + 1 * ((Shape.Idx.first (numel1_S1.symm ▸ Nat.one_pos) : (wordRect i).shape.Idx) (0 : Fin 1)).val = (i 0).val
  rw [hx, k0_off1_eq]
  rfl

set_option maxHeartbeats 1000000 in
/-- The body on whole memrefs: the table, held at any share, at contents reading `T`, the input buffer at `x`, the output buffer at anything,
    runs to the continuation with the first two as they were and the output buffer at `outBlock` of the loaded word and
    the loaded block. -/
theorem sound_kernel (c : Dev nD) (E : Set ℕ) (i : grid0.Coords)
    (arg2 : Memref sig .tc .smem S64 .i32) (harg2 : arg2.IsWhole)
    (arg3 : Memref sig .tc .vmem S1x1536x128 .f32) (harg3 : arg3.IsWhole) (arg4 : Memref sig .tc .vmem S1x1536x128 .f32) (harg4 : arg4.IsWhole)
    (q : PosShare TreeShare) (T : S64.Idx → Elt F .i32) (x : Vec F S1x1536x128 .f32) (K : PUnit → sProp 𝕄) :
    iprop(owns (c : Thread nD τ) arg2 q T ∗ owns (c : Thread nD τ) arg3 fullShare x ∗ (∃ d, owns (c : Thread nD τ) arg4 fullShare d)
        ∗ (iprop(owns (c : Thread nD τ) arg2 q T ∗ owns (c : Thread nD τ) arg3 fullShare x
            ∗ owns (c : Thread nD τ) arg4 fullShare (outBlock (maskWord T i) (View.ld x blockRect))) -∗ K ⟨⟩))
      ⊢ wp frame (wpE (defs₀ (F := F)) Variants.none c none) E (cc0__flip_kernel i arg2 harg2 arg3 harg3 arg4 harg4) K := by
  simp only [cc0__flip_kernel_eq_skeleton, k0_part1_eq_skeleton, k0_part2_eq_skeleton, k0_part3_eq_skeleton, k0_part4_eq_skeleton,
    k0_part5_eq_skeleton, k0_part6_eq_skeleton]
  unfold cc0__flip_kernel_skel
  unfold owns
  iintro ⟨⟨%ft, %hft, Ht⟩, ⟨%f0, %hf0, H0⟩, ⟨%d2, %f2, -, H2⟩, Hk⟩
  subst hft hf0
  sl_exec
  sl_step
  iapply Hk
  isplitl [Ht]
  · iexists ft; isplitr; · ipureintro; rfl
    iexact Ht
  isplitl [H0]
  · iexists f0; isplitr; · ipureintro; rfl
    iexact H0
  iexists _; isplitr
  swap; · iexact H2
  ipureintro
  have cover : ∀ (p : Vec F S1x1536x128 .f32) (y : S1x1536x128.Idx), ∃ pc ∈ ([⟨blockRect, p⟩] : List (View.Piece (Elt F) S1x1536x128 .f32)), y ∈ pc.1.set :=
    fun p y => ⟨_, List.mem_singleton_self _, View.mem_set_unit_zero (S := S1x1536x128) zero3 inb_S1x1536x128_S1x1536x128_0_0_0 y⟩
  have hr : sound_kernel.sl.r c i arg2 ft = maskWord (View.read (Elt F) arg2.view ft) i := rfl
  rw [hr]
  unfold outBlock
  by_cases h1 : k0_cond1 (maskWord (View.read (Elt F) arg2.view ft) i) = 1#1
  · have h2 : ¬ k0_cond2 (maskWord (View.read (Elt F) arg2.view ft) i) = 1#1 := fun h => (cond2_eq _).mp h h1
    rw [dif_neg h2, dif_pos h1, if_pos h1, View.read_writes_eq_canon _ _ _ (cover _), View.canon_unit_zero (S := S1x1536x128) zero3]
    rfl
  · have h2 : k0_cond2 (maskWord (View.read (Elt F) arg2.view ft) i) = 1#1 := (cond2_eq _).mpr h1
    rw [dif_pos h2, dif_neg h1, if_neg h1, View.read_writes_eq_canon _ _ _ (cover _), View.canon_unit_zero (S := S1x1536x128) zero3]
    rfl

end Cert.Kernel.Flip

end
-- ==== Proof.WFlipData.lean ====
/-
  The pipeline's proof data and the body obligation.

  The table the pipeline is pinned at is the launch's mask array, whatever it holds (every contents is admissible).
  At point (b, j) the input window's staging buffer holds block (b, 0, j') of the reshaped image array, j' = 3 - j when
  mask[b] is positive and j otherwise; the body leaves that buffer as it found it and leaves the output window's buffer
  at the block's lane mirror, or at the block, by the same test. The body's invariant is the table, held at a half share, the scoped
  buffers no window stages and the generator register.
-/
import proofs.«428787_j71734543777923_2_alg».proof.Proof.WFlipBody
import Idealize.ShloMosaic.Lib.Pipeline.Regions
import Idealize.ShloMosaic.Lib.StableHlo.Run

noncomputable section

namespace Cert.Kernel.Flip

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The table, and the pipeline pinned at it -/

/-- The mask table's contents at launch, on the one device. -/
def pf0 : pre0.Contents (Elt F) := fun k => m (((0 : Dev nD) : Thread nD τ).loc (pre0.ref k))

/-- They are admissible, as all contents are. -/
def adm : (p : Fin 1) → (pcfgs (F := F) p).Adm := fun _ => ⟨pf0 m, ok_all (pf0 m)⟩

/-- The pipeline at them. -/
abbrev cfgA : Pipeline.Cfg sig Λ₀ := cfg0 (adm m 0)

/-! ## @main up to the region: one reshape -/

/-- Core `c`'s buffers at launch, -/
abbrev V₀ (c : Dev nD) : Valuation τ sig (Elt F) := fun b => (s₀ m ρ).mem ((c : Dev nD), b)
/-- and when the region is entered: the reshape of the images to 64 × 1536 × 512 has run. -/
abbrev V (c : Dev nD) (b : Ref sig .tc) : Buf (Elt F) ((c : Thread nD τ).loc b) := StableHlo.after hostOps0 (V₀ m ρ c) b

/-! ## The proof data -/

/-- The input window's block at point `t`, read off the reshaped image array. -/
def inBlk (c : Dev nD) (t : Fin (cfgA m).N) : (((cfgA m).win 0).xblock ((cfgA m).grid.coords t)).Idx → Elt F ((cfgA m).win 0).elt :=
  (((cfgA m).win 0).blk t).view.read (Elt F) (V m ρ c (Pipeline.arrRef spec0 0))

/-- The mask word of the point's image. -/
def maskAt (t : Fin (cfgA m).N) : BitVec 32 := pf0 m 0 (maskIdx ((cfgA m).grid.coords t))

/-- The proof data on core `c`: the arrays as the region finds them; after the body the input's buffer at its block and
    the output's at the block mirrored or copied by the mask word; the invariant the unstaged scoped buffers, the
    generator register, and the table held at a half share; nothing owed; full shares. -/
def dats (_ : Fin 1) (c : Dev nD) : Dat τ (Elt F) Unit ℕ (UR sig nD τ) ℕ (cfgA m) c where
  A w := V m ρ c (Pipeline.arrRef spec0 w)
  after w t := match w with
    | ⟨0, _⟩ => inBlk m ρ c t
    | ⟨1, _⟩ => outBlock (maskAt m t) (inBlk m ρ c t)
  Φ _ := iprop(Pipeline.ΦA spec0 c ∗ Pipeline.ΦT pre0 (pf0 m) c)
  q _ := fullShare
  owed _ := 0

theorem A_eq (c : Dev nD) (w : Fin 2) : (dats m ρ 0 c).A w = V m ρ c (Pipeline.arrRef spec0 w) := by
  dsimp only [dats]

theorem after_0 (c : Dev nD) (t : Fin (cfgA m).N) : (dats m ρ 0 c).after (0 : Fin 2) t = inBlk m ρ c t := by dsimp only [dats]
theorem after_1 (c : Dev nD) (t : Fin (cfgA m).N) :
    (dats m ρ 0 c).after (1 : Fin 2) t = outBlock (maskAt m t) (inBlk m ρ c t) := by dsimp only [dats]

/-- The input's current staging buffer holds its block at every point, fetched there or not. -/
theorem before_0 (c : Dev nD) (t : Fin (cfgA m).N) (d) : (dats m ρ 0 c).before (0 : Fin 2) t d = inBlk m ρ c t :=
  ((dats m ρ 0 c).before_in_eq_fetched (0 : Fin 2) rfl (fun _ => rfl) (fun _ _ _ => rfl)
      (fun t => by rw [after_0]; unfold Dat.blockOf inBlk; rw [A_eq]; try rfl) t d).trans
    (by unfold Dat.fetched Dat.blockOf inBlk; rw [A_eq]; try rfl)

/-! ## The body obligation -/

/-- The output window is idle at no point. -/
theorem idle_1 (t : Fin (cfgA m).N) : (cfgA m).idle (1 : Fin 2) ((cfgA m).grid.coords t) = false := idle_out (pf0 m) _
/-- Nor is the input window. -/
theorem idle_0 (t : Fin (cfgA m).N) : (cfgA m).idle (0 : Fin 2) ((cfgA m).grid.coords t) = false := rfl

/-- The table held at a share is the table's buffer owned, at that share, as a whole memref. -/
theorem prefHeld_owns (c : Dev nD) (q : PosShare TreeShare) (T : pre0.Contents (Elt F)) :
    (Pipeline.prefHeld pre0 c (fun _ => q) T : sProp 𝕄) = owns (c : Thread nD τ) (Memref.whole main_arg1) q (T 0) := by
  unfold Pipeline.prefHeld
  rw [show (Finset.univ : Finset (Fin 1)) = {0} from rfl, bigSep_singleton]
  exact (owns_whole (c : Thread nD τ) main_arg1 q (T 0)).symm

/-- At every point: the input's buffer holds its block and the table is held, so the body's triple applies; it leaves
    the output's buffer at the block mirrored or copied by the image's mask word. -/
theorem body_obligation (c : Dev nD) : BodyObligation (dats m ρ 0 c) (defs₀ (F := F)) Variants.none () Set.univ := fun t => by
  rw [bigSep_W0, bigSep_W0]
  rw [idle_0 m t, idle_1 m t]
  dsimp only
  simp only [before_0]
  rw [show (dats m ρ 0 c).Φ t.succ = (dats m ρ 0 c).Φ t.castSucc from rfl,
    show (dats m ρ 0 c).owesAt () t.succ = (dats m ρ 0 c).owesAt () t.castSucc from rfl, after_0, after_1]
  rw [show (dats m ρ 0 c).Φ t.castSucc = iprop(Pipeline.ΦA spec0 c ∗ Pipeline.prefHeld pre0 c (fun _ => fullShare.right) (pf0 m)) from rfl,
    prefHeld_owns]
  have e : outBlock (maskWord (F := F) (pf0 m 0) ((cfgA m).grid.coords t)) (View.ld (inBlk m ρ c t) blockRect)
      = outBlock (maskAt m t) (inBlk m ρ c t) :=
    congrArg₂ outBlock (maskWord_eq (pf0 m 0) _) (ld_block (inBlk m ρ c t))
  iintro ⟨⟨Hs, Ht⟩, Ho, ⟨%d0, H0⟩, ⟨%d1, H1⟩⟩
  iapply (sound_kernel c Set.univ ((cfgA m).grid.coords t) (Memref.whole main_arg1) (Memref.isWhole_whole _) _ _ _ _ fullShare.right (pf0 m 0) (inBlk m ρ c t) _)
  isplitl [Ht]; · iexact Ht
  isplitl [H0]; · iexact H0
  isplitl [H1]; · iexists _; iexact H1
  iintro ⟨Ht, H0, H1⟩
  rw [← e]
  isplitl [Ht Hs]
  · isplitl [Hs]; · iexact Hs
    iexact Ht
  isplitl [Ho]; · iexact Ho
  isplitl [H0]; · iexact H0
  iexact H1

end Cert.Kernel.Flip

end
-- ==== Proof.WFlipRun.lean ====
/-
  The run of @main: the reshape to 64 × 1536 × 512, the pipelined region, the reshape back.

  Every weakly fair execution terminates; at the end the region's output array holds what the pipeline's write-backs
  leave of the proof data's blocks, the result is that array reshaped to 64 × 3 × 512 × 512, and the two arguments hold
  what they held at launch (no operation of @main writes either; the mask table is only read).
-/
import proofs.«428787_j71734543777923_2_alg».proof.Proof.WFlipData
import Idealize.ShloMosaic.Lib.Pipeline.FrameSuffix

noncomputable section

namespace Cert.Kernel.Flip

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered, as a valuation of the device's references. -/
abbrev Vin (c : Dev nD) : Valuation τ sig (Elt F) := StableHlo.after (List.flatten [hostOps0]) (fun b => m (c, b))

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshape, the region, the reshape back: it reduces to the region continued by the last line. -/
theorem hmain (𝒱₀ : Variants) : Pipeline.HMainPK (Ix := Unit) (Name := ℕ) (U := UR sig nD τ) (Lvl := ℕ) pcfgs 0 defs₀ 𝒱₀ m (main (F := F))
      (fun c b => Vin m c (Proc.devRef .tc b)) (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-! ## The line after the region -/

/-- A device reference is among those the last line may touch when it is a window's array or an unscoped buffer that is
    neither an array nor the table. -/
theorem mem_tailRefs_of_arr (w : Fin 2) : Proc.devRef (τ := τ) .tc (Pipeline.arrRef spec0 w) ∈ Pipeline.tailRefs (τ := τ) sig pre0 spec0 := by
  unfold Pipeline.tailRefs
  exact Finset.mem_map_of_mem _ (Finset.mem_union_left _ (Finset.mem_image_of_mem _ (Finset.mem_univ w)))

theorem v2_mem_rest : main_v2 ∈ Pipeline.restRefsP sig pre0 spec0 := by decide

theorem mem_tailRefs_v2 : Proc.devRef (τ := τ) .tc main_v2 ∈ Pipeline.tailRefs (τ := τ) sig pre0 spec0 := by
  unfold Pipeline.tailRefs
  exact Finset.mem_map_of_mem _ (Finset.mem_union_right _ v2_mem_rest)

/-- The last line touches the region's output array and the result only; -/
theorem tail_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  subst hops
  simp only [hostOps1, List.mem_cons, List.mem_nil_iff, or_false] at hop
  subst hop
  rw [StableHlo.reshape_bufs]
  intro b hb
  simp only [Finset.mem_insert, Finset.mem_singleton] at hb
  rcases hb with rfl | rfl
  · exact mem_tailRefs_of_arr 1
  · exact mem_tailRefs_v2
/-- allocates nothing; -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- and writes no array of the pipeline (it writes the result, which is none). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.reshape_writes, Finset.mem_singleton] <;> exact StableHlo.devRef_ne_of_ne (by decide)

/-! ## What the region finds -/

/-- The reshape before the region writes neither argument. -/
theorem first_not_written (b : Ref sig .tc) (hb : b ≠ main_v0) : ∀ op ∈ (hostOps0 (F := F)), Proc.devRef .tc b ∉ op.writes := by
  intro op hop
  simp only [hostOps0, List.mem_cons, List.mem_nil_iff, or_false] at hop
  subst hop
  simp only [StableHlo.reshape_writes, Finset.mem_singleton]
  exact StableHlo.devRef_ne_of_ne hb

theorem Vin_of_ne (c : Dev nD) (b : Ref sig .tc) (hb : b ≠ main_v0) : Vin m c (Proc.devRef .tc b) = m ((c : Thread nD τ).loc b) :=
  StableHlo.after_of_forall_not_mem (b := Proc.devRef .tc b) _ _ (by
    simp only [List.flatten_cons, List.flatten_nil, List.append_nil]; exact first_not_written b hb)

/-- The table the region reads is the launch's mask array. -/
theorem Vin_pre (c : Dev nD) (k : Fin 1) : Vin m c (Proc.devRef .tc (pre0.ref k)) = (adm m 0).1 k := by
  obtain rfl : c = 0 := Subsingleton.elim _ _
  fin_cases k
  exact Vin_of_ne m 0 main_arg1 (by decide)

theorem A_eq' (c : Dev nD) (w : Fin 2) : (dats m ρ 0 c).A w = Vin m c (Proc.devRef .tc (Pipeline.arrRef spec0 w)) := by
  rw [A_eq]; rfl

/-! ## The run -/

set_option backward.isDefEq.respectTransparency.types false in
/-- From any memory with zero counters every weakly fair execution of @main terminates, and every final state has the
    pipeline's arrays at what its write-backs leave of the proof data and every other unscoped buffer at what the last
    line leaves. -/
theorem run_main : θ_run defs (onTc (τ := τ) (main (F := F))) (s₀ m ρ)
    (Pipeline.FramePost (Pipeline.pin pcfgs (adm m)) (dats m ρ) 0 (Pipeline.afterTail pcfgs (adm m) (dats m ρ) 0 (Vin m) [hostOps1])) :=
  Pipeline.θ_run_frameP_around pcfgs (adm m) (dats m ρ) (0 : Fin 1) launch0 defs₀ Variants.none m ρ main
    (hbody := fun c => (body_obligation m ρ c).loose) (hshare := fun c => (dats m ρ 0 c).share_full fun _ => rfl)
    (howed := fun _ _ => rfl) (V₀ := Vin m) (opss := [hostOps1]) (hsub := tail_sub) (hfresh := tail_fresh) (hkeep := tail_keeps)
    (hmain := hmain m Variants.none) (hA := A_eq' m ρ) (hpf := Vin_pre m) (hΦ := fun _ _ => rfl)

end Cert.Kernel.Flip

end
-- ==== Proof.WFlipFrame.lean ====
/-
  What the run's post says of the two arguments and of the result.

  The arguments are buffers no window stages and no line writes: they end as launched. The result is the last line's
  reshape of the region's output array to 64 × 3 × 512 × 512.
-/
import proofs.«428787_j71734543777923_2_alg».proof.Proof.WFlipRun

noncomputable section

namespace Cert.Kernel.Flip

open Cert.Kernel Cert.Kernel.Gen
open Idealize.ShloMosaic Idealize.ShloMosaic.TcCoe Idealize.ShloMosaic.Tactic Idealize.ShloMosaic.StableHlo
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The last line writes the result only. -/
theorem last_not_written (b : Ref sig .tc) (hb : b ≠ main_v2) : ∀ op ∈ (hostOps1 (F := F)), Proc.devRef .tc b ∉ op.writes := by
  intro op hop
  simp only [hostOps1, List.mem_cons, List.mem_nil_iff, or_false] at hop
  subst hop
  simp only [StableHlo.reshape_writes, Finset.mem_singleton]
  exact StableHlo.devRef_ne_of_ne hb

/-- A buffer that is neither the reshaped images, nor the region's output, nor the result ends as launched. -/
theorem afterTail_of_ne (c : Dev nD) (b : Ref sig .tc) (h0 : b ≠ main_v0) (h1 : b ≠ main_v1) (h2 : b ≠ main_v2) :
    Pipeline.afterTail pcfgs (adm m) (dats m ρ) 0 (Vin m) [hostOps1] c b = m ((c : Thread nD τ).loc b) := by
  unfold Pipeline.afterTail
  rw [StableHlo.after_of_forall_not_mem (b := Proc.devRef .tc b) _ _ (by
      simp only [List.flatten_cons, List.flatten_nil, List.append_nil]; exact last_not_written b h2),
    Pipeline.withArrays_of_ne _ c _ _ b (fun w => by fin_cases w <;> [exact fun e => h0 e.symm; exact fun e => h1 e.symm])]
  exact Vin_of_ne m c b h0

theorem arg0_mem_rest : main_arg0 ∈ Pipeline.restRefs sig spec0 := by decide
theorem arg1_mem_rest : main_arg1 ∈ Pipeline.restRefs sig spec0 := by decide
theorem v2_mem_rest' : main_v2 ∈ Pipeline.restRefs sig spec0 := by decide

/-- THE FRAME: every weakly fair execution terminates, nothing faults, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_arg0 arg0_mem_rest).trans (afterTail_of_ne m ρ c main_arg0 (by decide) (by decide) (by decide)),
     ((h c).2 main_arg1 arg1_mem_rest).trans (afterTail_of_ne m ρ c main_arg1 (by decide) (by decide) (by decide))⟩)
    (run_main m ρ)

end Cert.Kernel.Flip

end
-- ==== Proof.FlipTables.lean ====
/-
  The mask table and the two windows' block indices.

  The kernel's grid is 64 × 4: point (b, j) handles image b and the j-th block of 128 columns. The output window's
  block index is (b, 0, j). The input window's is (b, 0, j') where j' = 3 - j when the b-th mask word is positive (as
  a signed 32-bit integer) and j' = j otherwise: either way j' < 4, so whatever the table holds every block lies
  inside the 64 × 1536 × 512 array and the pipeline's side condition on the table's contents holds of ALL contents.
  Exactly one of the body's two guarded stores fires at every point (the guards are "the word is positive" and its
  negation), so the output window is idle nowhere.
-/
import proofs.«428787_j71734543777923_2_alg».proof.Proof.Gen.KernelIdeal.Launch
import proofs.«428787_j71734543777923_2_alg».proof.Proof.Gen.KernelIdeal.Skeleton

noncomputable section

namespace Cert.KernelIdeal.Flip

open Cert.KernelIdeal Cert.KernelIdeal.Gen
open Idealize.ShloMosaic Idealize.SL.Sem

variable {F : FTy → Type} [FloatOps F]

/-- The body's two guards are complementary: the first is "the word is positive", the second its negation. -/
theorem cond2_eq (x : BitVec 32) : (k0_cond2 x = 1#1) ↔ ¬ (k0_cond1 x = 1#1) := by
  dsimp only [k0_cond1, k0_cond2]
  generalize Scalar.cmpi .sgt x 0#32 = b
  revert b; decide

/-- The mask word the index map and the body read at image `b`: the table's element there. -/
abbrev word (pf : pre0.Contents (Elt F)) (i : grid0.Coords) : BitVec 32 := pf.atD 0 (k0_off1 i)

/-- The input block's column-block index at point `i`: mirrored when the word is positive. -/
def srcCol (x : BitVec 32) (j : Nat) : Nat := if k0_cond1 x = 1#1 then 3 - j else j

theorem srcCol_lt (x : BitVec 32) {j : Nat} (hj : j < 4) : srcCol x j < 4 := by
  unfold srcCol; split <;> omega

/-- The body's (and the index map's) read of the mask at image `b` is inside the 64-word table. -/
theorem word_inb (i : grid0.Coords) : ∀ a, k0_off1 i a + 1 ≤ (pre0.ref 0).ty.shape.size a :=
  fun a => by fin_cases a; exact k0_off1_inb i 0

/-- The word the index map loads is the table's element at image `b`. -/
theorem at_eq_word (pf : pre0.Contents (Elt F)) (i : grid0.Coords) :
    pf.at 0 (Rect.unit (s := S64) (k0_off1 i) S1.size (k0_off1_inb i)) numel1_S1 = word pf i := by
  unfold word Pipeline.Prefetch.Contents.atD
  split
  · rfl
  · next hn => exact absurd (word_inb i) hn

/-- The index map's arithmetic on abstract words: the select between `3 - j` and `j`. -/
theorem transform0_aux (b : BitVec 1) (n j : Nat) (h0 : n < 64) (h1 : j < 4) :
    (![(BitVec.ofNat 32 n).toNat, (0#32).toNat,
        (Scalar.select b (Scalar.subi (3#32) (BitVec.ofNat 32 j)) (BitVec.ofNat 32 j)).toNat] : Fin 3 → Nat)
      = ![n, 0, if Scalar.cmpi CmpIPredicate.ne (Scalar.extui b) 0#32 = 1#1 then 3 - j else j] := by
  have hn : (BitVec.ofNat 32 n).toNat = n := by rw [BitVec.toNat_ofNat]; exact Nat.mod_eq_of_lt (by omega)
  rw [hn]
  have hb : b = 0#1 ∨ b = 1#1 := by revert b; decide
  have hj : j = 0 ∨ j = 1 ∨ j = 2 ∨ j = 3 := by omega
  rcases hb with rfl | rfl <;> rcases hj with rfl | rfl | rfl | rfl <;> rfl

/-- The input window's block index in closed form: image `b`, the one row block, the column block `srcCol`. -/
theorem transform0_eq (pf : pre0.Contents (Elt F)) (i : grid0.Coords) :
    cc0_transform_0 k0_off1_inb numel1_S1 pf i = ![(i 0).val, 0, srcCol (word pf i) (i 1).val] := by
  have h0 : (i 0).val < 64 := (i 0).isLt
  have h1 : (i 1).val < 4 := (i 1).isLt
  have hw : pf.at 0 (Rect.unit (s := S64) ![(Scalar.indexCast (BitVec.ofNat 32 (i 0).val)).toNat] S1.size (k0_off1_inb i)) numel1_S1
      = word pf i := at_eq_word pf i
  unfold cc0_transform_0
  dsimp only
  rw [hw]
  unfold srcCol k0_cond1
  dsimp only
  exact transform0_aux _ _ _ h0 h1

/-- Every input block lies inside the array, whatever the table holds: the pipeline's side condition on the table's
    contents holds of all contents. -/
theorem ok_all (pf : pre0.Contents (Elt F)) : ok0 pf := by
  unfold ok0
  intro i
  refine ⟨?_, Or.inl rfl⟩
  rw [transform0_eq]
  have h0 : (i 0).val < 64 := (i 0).isLt
  have h1 := srcCol_lt (word pf i) (i 1).isLt
  intro a
  fin_cases a
  · show ((i 0).val + 1) * 1 ≤ 64; omega
  · show (0 + 1) * 1536 ≤ 1536; omega
  · show (srcCol (word pf i) (i 1).val + 1) * 128 ≤ 512; omega

/-- The output window is idle at no point: one of the two guarded stores fires. -/
theorem idle_out (pf : pre0.Contents (Elt F)) (i : grid0.Coords) : idle0 pf 1 i = false := by
  show (!(k0_cond1 (word pf i) == 1#1) && !(k0_cond2 (word pf i) == 1#1)) = false
  by_cases h : k0_cond1 (word pf i) = 1#1
  · simp [h]
  · have h2 := (cond2_eq (word pf i)).mpr h
    simp [h2]

end Cert.KernelIdeal.Flip

end
-- ==== Proof.FlipBlock.lean ====
/-
  What the body's mirrored branch stores, as a function of the input block it loaded.

  The branch splits the 1536 × 128 block's lanes in halves, recursively down to single lanes, and concatenates the
  pieces back in the opposite order at every level: the stored block is the loaded block with its 128 lanes mirrored,
  lane l reading lane 127 - l of the same row. The other branch stores the loaded block as it is.
-/
import proofs.«428787_j71734543777923_2_alg».proof.Proof.Gen.KernelIdeal.Skeleton
import Idealize.ShloMosaic.Lib.Pipeline.Value
import Idealize.ShloMosaic.Lib.ValueIdx
import Idealize.ShloMosaic.Lib.ValueLayout

noncomputable section

namespace Cert.KernelIdeal.Flip

open Cert.KernelIdeal Cert.KernelIdeal.Gen
open Idealize.ShloMosaic Idealize.ShloMosaic.ValueIdx

variable {F : FTy → Type} [FloatOps F]

/-! ## Mirroring the lanes of a block, and one level of the half-and-swap tree -/

section Lanes
variable {α : Type} {m : Nat}

/-- A block of `m` rows and `k` lanes with its lanes mirrored: lane `c` reads lane `k - 1 - c` of the same row. -/
def revLanes {k : Nat} (x : (⟨2, ![m, k]⟩ : Shape).Idx → α) : (⟨2, ![m, k]⟩ : Shape).Idx → α :=
  fun j => x (ix2 (j 0) ⟨k - 1 - (j 1).val, by have := idx2_lt1 j; omega⟩)

/-- The mirrored block read by coordinates. -/
theorem revLanes_apply {k : Nat} (x : (⟨2, ![m, k]⟩ : Shape).Idx → α) (r : Fin m) (c : Fin k) :
    revLanes x (ix2 r c) = x (ix2 r ⟨k - 1 - c.val, by have := c.isLt; omega⟩) := rfl

/-- The bottom of the tree: a two-lane block's right lane followed by its left lane is the block mirrored. At lane 0
    the concatenation reads the first piece, lane 1 of the block; at lane 1 the second piece, lane 0 of the block. -/
theorem swap_lanes (y : (⟨2, ![m, 2]⟩ : Shape).Idx → α)
    (h1 : (⟨2, ![m, 2]⟩ : Shape).Slices ![0, 1] ⟨2, ![m, 1]⟩) (h0 : (⟨2, ![m, 2]⟩ : Shape).Slices ![0, 0] ⟨2, ![m, 1]⟩)
    (hc : Shape.Concatenates [(⟨2, ![m, 1]⟩ : Shape), ⟨2, ![m, 1]⟩] ⟨2, ![m, 2]⟩ 1) :
    concatenate ⟨2, ![m, 2]⟩ 1 [⟨⟨2, ![m, 1]⟩, extractStridedSlice ⟨2, ![m, 1]⟩ ![0, 1] y h1⟩,
      ⟨⟨2, ![m, 1]⟩, extractStridedSlice ⟨2, ![m, 1]⟩ ![0, 0] y h0⟩] hc = revLanes y := by
  funext j
  obtain ⟨r, c, rfl⟩ : ∃ r c, j = ix2 r c := ⟨_, _, eq_ix2 j⟩
  have hc2 : c.val < 2 := c.isLt
  by_cases hlt : c.val < 1
  · refine (concatenate_pair_apply_left (t := ⟨2, ![m, 2]⟩) (s₁ := ⟨2, ![m, 1]⟩) (s₂ := ⟨2, ![m, 1]⟩) 1 _ _ hc (ix2 r c) rfl
      (ix2 (n1 := 1) r ⟨c.val, hlt⟩) (fun b => match b with | ⟨0, _⟩ => rfl | ⟨1, _⟩ => rfl)).trans ?_
    refine (slice2_axis1_apply 1 y h1 r ⟨c.val, hlt⟩ ⟨2 - 1 - c.val, by omega⟩ (by show 2 - 1 - c.val = 1 + c.val; omega)).trans ?_
    rfl
  · refine (concatenate_pair_apply_right (t := ⟨2, ![m, 2]⟩) (s₁ := ⟨2, ![m, 1]⟩) (s₂ := ⟨2, ![m, 1]⟩) 1 _ _ hc (ix2 r c) rfl rfl
      (ix2 (n1 := 1) r ⟨c.val - 1, by omega⟩)
      (fun b => match b with | ⟨0, _⟩ => fun _ => rfl | ⟨1, _⟩ => fun h => absurd rfl h)
      (by show c.val - 1 + 1 = c.val; omega)).trans ?_
    refine (slice2_axis1_apply 0 y h0 r ⟨c.val - 1, by omega⟩ ⟨2 - 1 - c.val, by omega⟩ (by show 2 - 1 - c.val = 0 + (c.val - 1); omega)).trans ?_
    rfl

/-- One level of the tree: the right half mirrored followed by the left half mirrored is the whole block mirrored.
    With `k = n + n` lanes, a lane `c < n` of the concatenation is lane `c` of the mirrored right half, which is lane
    `n + (n - 1 - c) = k - 1 - c` of the block; a lane `c ≥ n` is lane `c - n` of the mirrored left half, which is lane
    `n - 1 - (c - n) = k - 1 - c` of the block. -/
theorem mirror_halves {n k : Nat} (z : (⟨2, ![m, k]⟩ : Shape).Idx → α)
    (h1 : (⟨2, ![m, k]⟩ : Shape).Slices ![0, n] ⟨2, ![m, n]⟩) (h0 : (⟨2, ![m, k]⟩ : Shape).Slices ![0, 0] ⟨2, ![m, n]⟩)
    (hc : Shape.Concatenates [(⟨2, ![m, n]⟩ : Shape), ⟨2, ![m, n]⟩] ⟨2, ![m, k]⟩ 1) :
    concatenate ⟨2, ![m, k]⟩ 1 [⟨⟨2, ![m, n]⟩, revLanes (extractStridedSlice ⟨2, ![m, n]⟩ ![0, n] z h1)⟩,
      ⟨⟨2, ![m, n]⟩, revLanes (extractStridedSlice ⟨2, ![m, n]⟩ ![0, 0] z h0)⟩] hc = revLanes z := by
  funext j
  obtain ⟨r, c, rfl⟩ : ∃ r c, j = ix2 r c := ⟨_, _, eq_ix2 j⟩
  have hck : c.val < k := c.isLt
  -- the two halves' extents add up to the block's
  have hk : k = n + n := by
    have e := hc.2.2
    simp at e
    omega
  by_cases hlt : c.val < n
  · refine (concatenate_pair_apply_left (t := ⟨2, ![m, k]⟩) (s₁ := ⟨2, ![m, n]⟩) (s₂ := ⟨2, ![m, n]⟩) 1 _ _ hc (ix2 r c) rfl
      (ix2 (n1 := n) r ⟨c.val, hlt⟩) (fun b => match b with | ⟨0, _⟩ => rfl | ⟨1, _⟩ => rfl)).trans ?_
    refine (revLanes_apply _ r ⟨c.val, hlt⟩).trans ?_
    refine (slice2_axis1_apply n z h1 r _ ⟨k - 1 - c.val, by omega⟩ (by show k - 1 - c.val = n + (n - 1 - c.val); omega)).trans ?_
    rfl
  · refine (concatenate_pair_apply_right (t := ⟨2, ![m, k]⟩) (s₁ := ⟨2, ![m, n]⟩) (s₂ := ⟨2, ![m, n]⟩) 1 _ _ hc (ix2 r c) rfl rfl
      (ix2 (n1 := n) r ⟨c.val - n, by omega⟩)
      (fun b => match b with | ⟨0, _⟩ => fun _ => rfl | ⟨1, _⟩ => fun h => absurd rfl h)
      (by show c.val - n + n = c.val; omega)).trans ?_
    refine (revLanes_apply _ r ⟨c.val - n, by omega⟩).trans ?_
    refine (slice2_axis1_apply 0 z h0 r _ ⟨k - 1 - c.val, by omega⟩ (by show k - 1 - c.val = 0 + (n - 1 - (c.val - n)); omega)).trans ?_
    rfl

/-- A two-piece concatenation depends on its pieces only through their values: equal pieces give equal results. -/
theorem concatenate_pair_congr {t s₁ s₂ : Shape} (a : Fin t.rank) {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁; subst e₂; rfl

end Lanes

/-- The value the mirrored branch stores, from the input block it loaded: the body's pure operations in order (the
    half-and-swap tree over the lanes), as the body's run names them. -/
def mirroredBlock (v9 : Vec F S1x1536x128 .f32) : FVec F S1x1536x128 .f32 :=
  let v11 := k0_pay4 v9
  let v13 := k0_pay6 v9
  let v61 := k0_pay9 v9
  let v62 := k0_pay10 v9
  let v64 := k0_pay12 v9
  let v65 := k0_pay13 v9
  let v107 := k0_pay14 v61 v62 v64 v65
  let v108 := k0_pay15 v13
  let v110 := k0_pay17 v13
  let v122 := k0_pay20 v13
  let v123 := k0_pay21 v13
  let v124 := k0_pay22 v13
  let v125 := k0_pay23 v13
  let v154 := k0_pay24 v110 v122 v123 v124 v125
  let v177 := k0_pay26 v108
  let v178 := k0_pay27 v108
  let v180 := k0_pay29 v108
  let v184 := k0_pay30 v108
  let v185 := k0_pay31 v108
  let v201 := k0_pay32 v107 v154 v177 v178 v180 v184 v185
  let v202 := k0_pay33 v11
  let v204 := k0_pay35 v11
  let v228 := k0_pay38 v11
  let v239 := k0_pay40 v11
  let v240 := k0_pay41 v11
  let v244 := k0_pay42 v11
  let v245 := k0_pay43 v11
  let v296 := k0_pay44 v204 v228 v239 v240 v244 v245
  let v297 := k0_pay45 v202
  let v299 := k0_pay47 v202
  let v301 := k0_pay49 v202
  let v303 := k0_pay51 v202
  let v304 := k0_pay52 v202
  let v305 := k0_pay53 v202
  let v343 := k0_pay54 v299 v301 v303 v304 v305
  let v344 := k0_pay55 v297
  let v356 := k0_pay57 v297
  let v365 := k0_pay58 v297
  k0_pay1 v201 v296 v343 v344 v356 v365

/-- The mirrored lane. -/
def mirrorLane (l : Fin 128) : Fin 128 := ⟨127 - l.val, by omega⟩

attribute [local congr] concatenate_pair_congr

/-- The whole tree at once. Every concatenation of the seven levels (64, 32, …, 1 of them, bottom to top) is one of the
    two cases above, so from the leaves up each subtree is its block of lanes mirrored, and the root is the 1536 × 128
    view of the loaded block mirrored, viewed back as 1 × 1536 × 128. -/
theorem mirroredBlock_eq (v9 : Vec F S1x1536x128 .f32) :
    mirroredBlock v9 = shapeCast S1x1536x128 (revLanes (shapeCast S1536x128 v9 shapeCasts_S1x1536x128_S1536x128))
      shapeCasts_S1536x128_S1x1536x128 := by
  simp only [mirroredBlock, k0_pay1, k0_pay3, k0_pay4, k0_pay5, k0_pay6, k0_pay7, k0_pay8, k0_pay9, k0_pay10, k0_pay11,
    k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41,
    k0_pay42, k0_pay43, k0_pay44, k0_pay45, k0_pay46, k0_pay47, k0_pay48, k0_pay49, k0_pay50, k0_pay51,
    k0_pay52, k0_pay53, k0_pay54, k0_pay55, k0_pay56, k0_pay57, k0_pay58,
    swap_lanes, mirror_halves]

/-- The mirrored branch stores the loaded block with its lanes mirrored: row `r`, lane `l` reads lane `127 - l`. -/
theorem mirroredBlock_apply (v9 : Vec F S1x1536x128 .f32) (u : Fin 1) (r : Fin 1536) (l : Fin 128) :
    mirroredBlock v9 (ix3 u r l) = v9 (ix3 (0 : Fin 1) r (mirrorLane l)) := by
  -- the added unit axis, then the mirror, then the dropped unit axis, each read at its coordinates
  rw [mirroredBlock_eq]
  refine (shapeCast_ab_1ab_apply _ _ u r l).trans ?_
  refine (revLanes_apply _ r l).trans ?_
  exact shapeCast_1ab_ab_apply v9 _ r _

/-- The other branch stores the loaded block as it is (a cast to 1536 × 128 and back). -/
theorem copiedBlock_eq (v9 : Vec F S1x1536x128 .f32) : k0_pay2 v9 = v9 := by
  unfold k0_pay2
  exact shapeCast_shapeCast v9 _ _

end Cert.KernelIdeal.Flip

end
-- ==== Proof.FlipBody.lean ====
/-
  The kernel body's triple, at a symbolic grid point and on symbolic whole memrefs.

  The body loads the mask word of image b from the table, and then exactly one of its two guarded stores fires:
  when the word is positive the output buffer is overwritten whole with the input block's lane mirror, otherwise with
  the input block itself. The table and the input buffer are left as found.
-/
import proofs.«428787_j71734543777923_2_alg».proof.Proof.FlipTables
import proofs.«428787_j71734543777923_2_alg».proof.Proof.FlipBlock
import Idealize.ShloMosaic.Lib.Pipeline.FrameBody
import Idealize.ShloMosaic.Lib.Pipeline.Value
import Idealize.ShloMosaic.Lib.Pipeline.Kit
import Idealize.ShloMosaic.Lib.Tactic

noncomputable section

namespace Cert.KernelIdeal.Flip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table's index of image `b`, the point's first coordinate. -/
def maskIdx (i : grid0.Coords) : S64.Idx := fun a => ⟨(i 0).val, by fin_cases a; exact (i 0).isLt⟩

/-- The whole-block rectangle the body's loads and stores go through. -/
abbrev blockRect : Rect S1x1536x128 := Rect.unit (s := S1x1536x128) ![0, 0, 0] S1x1536x128.size inb_S1x1536x128_S1x1536x128_0_0_0

/-- The one-word rectangle of the table the body's scalar load goes through at point `i`. -/
abbrev wordRect (i : grid0.Coords) : Rect S64 := Rect.unit (s := S64) (k0_off1 i) S1.size (k0_off1_inb i)

/-- The mask word the body loads at point `i` from a table reading `T`. -/
def maskWord (T : S64.Idx → Elt F .i32) (i : grid0.Coords) : BitVec 32 :=
  View.ld T (wordRect i) (Shape.Idx.first (numel1_S1.symm ▸ Nat.one_pos))

/-- What the body leaves in the output buffer, from the mask word and the input block: the lane mirror when the word
    is positive, the block itself otherwise. -/
def outBlock (w : BitVec 32) (x : Vec F S1x1536x128 .f32) : FVec F S1x1536x128 .f32 :=
  if k0_cond1 w = 1#1 then mirroredBlock x else k0_pay2 x

theorem zero3 : (![0, 0, 0] : Fin 3 → Nat) = fun _ => 0 := funext fun a => by fin_cases a <;> rfl

/-- A load through the whole-block rectangle reads the block. -/
theorem ld_block (x : Vec F S1x1536x128 .f32) : View.ld x blockRect = x :=
  View.ld_unit_zero (S := S1x1536x128) zero3 _ x

/-- The loaded word is the table's element at image `b`. -/
theorem maskWord_eq (T : S64.Idx → Elt F .i32) (i : grid0.Coords) : maskWord T i = T (maskIdx i) := by
  unfold maskWord View.ld
  congr 1
  funext a
  apply Fin.ext
  fin_cases a
  have hx : ((Shape.Idx.first (numel1_S1.symm ▸ Nat.one_pos) : (wordRect i).shape.Idx) (0 : Fin 1)).val = 0 := rfl
  show k0_off1 i 0 + 1 * ((Shape.Idx.first (numel1_S1.symm ▸ Nat.one_pos) : (wordRect i).shape.Idx) (0 : Fin 1)).val = (i 0).val
  rw [hx, k0_off1_eq]
  rfl

set_option maxHeartbeats 1000000 in
/-- The body on whole memrefs: the table, held at any share, at contents reading `T`, the input buffer at `x`, the output buffer at anything,
    runs to the continuation with the first two as they were and the output buffer at `outBlock` of the loaded word and
    the loaded block. -/
theorem sound_kernel (c : Dev nD) (E : Set ℕ) (i : grid0.Coords)
    (arg2 : Memref sig .tc .smem S64 .i32) (harg2 : arg2.IsWhole)
    (arg3 : Memref sig .tc .vmem S1x1536x128 .f32) (harg3 : arg3.IsWhole) (arg4 : Memref sig .tc .vmem S1x1536x128 .f32) (harg4 : arg4.IsWhole)
    (q : PosShare TreeShare) (T : S64.Idx → Elt F .i32) (x : Vec F S1x1536x128 .f32) (K : PUnit → sProp 𝕄) :
    iprop(owns (c : Thread nD τ) arg2 q T ∗ owns (c : Thread nD τ) arg3 fullShare x ∗ (∃ d, owns (c : Thread nD τ) arg4 fullShare d)
        ∗ (iprop(owns (c : Thread nD τ) arg2 q T ∗ owns (c : Thread nD τ) arg3 fullShare x
            ∗ owns (c : Thread nD τ) arg4 fullShare (outBlock (maskWord T i) (View.ld x blockRect))) -∗ K ⟨⟩))
      ⊢ wp frame (wpE (defs₀ (F := F)) Variants.none c none) E (cc0__flip_kernel i arg2 harg2 arg3 harg3 arg4 harg4) K := by
  simp only [cc0__flip_kernel_eq_skeleton, k0_part1_eq_skeleton, k0_part2_eq_skeleton, k0_part3_eq_skeleton, k0_part4_eq_skeleton,
    k0_part5_eq_skeleton, k0_part6_eq_skeleton]
  unfold cc0__flip_kernel_skel
  unfold owns
  iintro ⟨⟨%ft, %hft, Ht⟩, ⟨%f0, %hf0, H0⟩, ⟨%d2, %f2, -, H2⟩, Hk⟩
  subst hft hf0
  sl_exec
  sl_step
  iapply Hk
  isplitl [Ht]
  · iexists ft; isplitr; · ipureintro; rfl
    iexact Ht
  isplitl [H0]
  · iexists f0; isplitr; · ipureintro; rfl
    iexact H0
  iexists _; isplitr
  swap; · iexact H2
  ipureintro
  have cover : ∀ (p : Vec F S1x1536x128 .f32) (y : S1x1536x128.Idx), ∃ pc ∈ ([⟨blockRect, p⟩] : List (View.Piece (Elt F) S1x1536x128 .f32)), y ∈ pc.1.set :=
    fun p y => ⟨_, List.mem_singleton_self _, View.mem_set_unit_zero (S := S1x1536x128) zero3 inb_S1x1536x128_S1x1536x128_0_0_0 y⟩
  have hr : sound_kernel.sl.r c i arg2 ft = maskWord (View.read (Elt F) arg2.view ft) i := rfl
  rw [hr]
  unfold outBlock
  by_cases h1 : k0_cond1 (maskWord (View.read (Elt F) arg2.view ft) i) = 1#1
  · have h2 : ¬ k0_cond2 (maskWord (View.read (Elt F) arg2.view ft) i) = 1#1 := fun h => (cond2_eq _).mp h h1
    rw [dif_neg h2, dif_pos h1, if_pos h1, View.read_writes_eq_canon _ _ _ (cover _), View.canon_unit_zero (S := S1x1536x128) zero3]
    rfl
  · have h2 : k0_cond2 (maskWord (View.read (Elt F) arg2.view ft) i) = 1#1 := (cond2_eq _).mpr h1
    rw [dif_pos h2, dif_neg h1, if_neg h1, View.read_writes_eq_canon _ _ _ (cover _), View.canon_unit_zero (S := S1x1536x128) zero3]
    rfl

end Cert.KernelIdeal.Flip

end
-- ==== Proof.FlipData.lean ====
/-
  The pipeline's proof data and the body obligation.

  The table the pipeline is pinned at is the launch's mask array, whatever it holds (every contents is admissible).
  At point (b, j) the input window's staging buffer holds block (b, 0, j') of the reshaped image array, j' = 3 - j when
  mask[b] is positive and j otherwise; the body leaves that buffer as it found it and leaves the output window's buffer
  at the block's lane mirror, or at the block, by the same test. The body's invariant is the table, held at a half share, the scoped
  buffers no window stages and the generator register.
-/
import proofs.«428787_j71734543777923_2_alg».proof.Proof.FlipBody
import Idealize.ShloMosaic.Lib.Pipeline.Regions
import Idealize.ShloMosaic.Lib.StableHlo.Run

noncomputable section

namespace Cert.KernelIdeal.Flip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The table, and the pipeline pinned at it -/

/-- The mask table's contents at launch, on the one device. -/
def pf0 : pre0.Contents (Elt F) := fun k => m (((0 : Dev nD) : Thread nD τ).loc (pre0.ref k))

/-- They are admissible, as all contents are. -/
def adm : (p : Fin 1) → (pcfgs (F := F) p).Adm := fun _ => ⟨pf0 m, ok_all (pf0 m)⟩

/-- The pipeline at them. -/
abbrev cfgA : Pipeline.Cfg sig Λ₀ := cfg0 (adm m 0)

/-! ## @main up to the region: one reshape -/

/-- Core `c`'s buffers at launch, -/
abbrev V₀ (c : Dev nD) : Valuation τ sig (Elt F) := fun b => (s₀ m ρ).mem ((c : Dev nD), b)
/-- and when the region is entered: the reshape of the images to 64 × 1536 × 512 has run. -/
abbrev V (c : Dev nD) (b : Ref sig .tc) : Buf (Elt F) ((c : Thread nD τ).loc b) := StableHlo.after hostOps0 (V₀ m ρ c) b

/-! ## The proof data -/

/-- The input window's block at point `t`, read off the reshaped image array. -/
def inBlk (c : Dev nD) (t : Fin (cfgA m).N) : (((cfgA m).win 0).xblock ((cfgA m).grid.coords t)).Idx → Elt F ((cfgA m).win 0).elt :=
  (((cfgA m).win 0).blk t).view.read (Elt F) (V m ρ c (Pipeline.arrRef spec0 0))

/-- The mask word of the point's image. -/
def maskAt (t : Fin (cfgA m).N) : BitVec 32 := pf0 m 0 (maskIdx ((cfgA m).grid.coords t))

/-- The proof data on core `c`: the arrays as the region finds them; after the body the input's buffer at its block and
    the output's at the block mirrored or copied by the mask word; the invariant the unstaged scoped buffers, the
    generator register, and the table held at a half share; nothing owed; full shares. -/
def dats (_ : Fin 1) (c : Dev nD) : Dat τ (Elt F) Unit ℕ (UR sig nD τ) ℕ (cfgA m) c where
  A w := V m ρ c (Pipeline.arrRef spec0 w)
  after w t := match w with
    | ⟨0, _⟩ => inBlk m ρ c t
    | ⟨1, _⟩ => outBlock (maskAt m t) (inBlk m ρ c t)
  Φ _ := iprop(Pipeline.ΦA spec0 c ∗ Pipeline.ΦT pre0 (pf0 m) c)
  q _ := fullShare
  owed _ := 0

theorem A_eq (c : Dev nD) (w : Fin 2) : (dats m ρ 0 c).A w = V m ρ c (Pipeline.arrRef spec0 w) := by
  dsimp only [dats]

theorem after_0 (c : Dev nD) (t : Fin (cfgA m).N) : (dats m ρ 0 c).after (0 : Fin 2) t = inBlk m ρ c t := by dsimp only [dats]
theorem after_1 (c : Dev nD) (t : Fin (cfgA m).N) :
    (dats m ρ 0 c).after (1 : Fin 2) t = outBlock (maskAt m t) (inBlk m ρ c t) := by dsimp only [dats]

/-- The input's current staging buffer holds its block at every point, fetched there or not. -/
theorem before_0 (c : Dev nD) (t : Fin (cfgA m).N) (d) : (dats m ρ 0 c).before (0 : Fin 2) t d = inBlk m ρ c t :=
  ((dats m ρ 0 c).before_in_eq_fetched (0 : Fin 2) rfl (fun _ => rfl) (fun _ _ _ => rfl)
      (fun t => by rw [after_0]; unfold Dat.blockOf inBlk; rw [A_eq]; try rfl) t d).trans
    (by unfold Dat.fetched Dat.blockOf inBlk; rw [A_eq]; try rfl)

/-! ## The body obligation -/

/-- The output window is idle at no point. -/
theorem idle_1 (t : Fin (cfgA m).N) : (cfgA m).idle (1 : Fin 2) ((cfgA m).grid.coords t) = false := idle_out (pf0 m) _
/-- Nor is the input window. -/
theorem idle_0 (t : Fin (cfgA m).N) : (cfgA m).idle (0 : Fin 2) ((cfgA m).grid.coords t) = false := rfl

/-- The table held at a share is the table's buffer owned, at that share, as a whole memref. -/
theorem prefHeld_owns (c : Dev nD) (q : PosShare TreeShare) (T : pre0.Contents (Elt F)) :
    (Pipeline.prefHeld pre0 c (fun _ => q) T : sProp 𝕄) = owns (c : Thread nD τ) (Memref.whole main_arg1) q (T 0) := by
  unfold Pipeline.prefHeld
  rw [show (Finset.univ : Finset (Fin 1)) = {0} from rfl, bigSep_singleton]
  exact (owns_whole (c : Thread nD τ) main_arg1 q (T 0)).symm

/-- At every point: the input's buffer holds its block and the table is held, so the body's triple applies; it leaves
    the output's buffer at the block mirrored or copied by the image's mask word. -/
theorem body_obligation (c : Dev nD) : BodyObligation (dats m ρ 0 c) (defs₀ (F := F)) Variants.none () Set.univ := fun t => by
  rw [bigSep_W0, bigSep_W0]
  rw [idle_0 m t, idle_1 m t]
  dsimp only
  simp only [before_0]
  rw [show (dats m ρ 0 c).Φ t.succ = (dats m ρ 0 c).Φ t.castSucc from rfl,
    show (dats m ρ 0 c).owesAt () t.succ = (dats m ρ 0 c).owesAt () t.castSucc from rfl, after_0, after_1]
  rw [show (dats m ρ 0 c).Φ t.castSucc = iprop(Pipeline.ΦA spec0 c ∗ Pipeline.prefHeld pre0 c (fun _ => fullShare.right) (pf0 m)) from rfl,
    prefHeld_owns]
  have e : outBlock (maskWord (F := F) (pf0 m 0) ((cfgA m).grid.coords t)) (View.ld (inBlk m ρ c t) blockRect)
      = outBlock (maskAt m t) (inBlk m ρ c t) :=
    congrArg₂ outBlock (maskWord_eq (pf0 m 0) _) (ld_block (inBlk m ρ c t))
  iintro ⟨⟨Hs, Ht⟩, Ho, ⟨%d0, H0⟩, ⟨%d1, H1⟩⟩
  iapply (sound_kernel c Set.univ ((cfgA m).grid.coords t) (Memref.whole main_arg1) (Memref.isWhole_whole _) _ _ _ _ fullShare.right (pf0 m 0) (inBlk m ρ c t) _)
  isplitl [Ht]; · iexact Ht
  isplitl [H0]; · iexact H0
  isplitl [H1]; · iexists _; iexact H1
  iintro ⟨Ht, H0, H1⟩
  rw [← e]
  isplitl [Ht Hs]
  · isplitl [Hs]; · iexact Hs
    iexact Ht
  isplitl [Ho]; · iexact Ho
  isplitl [H0]; · iexact H0
  iexact H1

end Cert.KernelIdeal.Flip

end
-- ==== Proof.FlipRun.lean ====
/-
  The run of @main: the reshape to 64 × 1536 × 512, the pipelined region, the reshape back.

  Every weakly fair execution terminates; at the end the region's output array holds what the pipeline's write-backs
  leave of the proof data's blocks, the result is that array reshaped to 64 × 3 × 512 × 512, and the two arguments hold
  what they held at launch (no operation of @main writes either; the mask table is only read).
-/
import proofs.«428787_j71734543777923_2_alg».proof.Proof.FlipData
import Idealize.ShloMosaic.Lib.Pipeline.FrameSuffix

noncomputable section

namespace Cert.KernelIdeal.Flip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered, as a valuation of the device's references. -/
abbrev Vin (c : Dev nD) : Valuation τ sig (Elt F) := StableHlo.after (List.flatten [hostOps0]) (fun b => m (c, b))

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshape, the region, the reshape back: it reduces to the region continued by the last line. -/
theorem hmain (𝒱₀ : Variants) : Pipeline.HMainPK (Ix := Unit) (Name := ℕ) (U := UR sig nD τ) (Lvl := ℕ) pcfgs 0 defs₀ 𝒱₀ m (main (F := F))
      (fun c b => Vin m c (Proc.devRef .tc b)) (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-! ## The line after the region -/

/-- A device reference is among those the last line may touch when it is a window's array or an unscoped buffer that is
    neither an array nor the table. -/
theorem mem_tailRefs_of_arr (w : Fin 2) : Proc.devRef (τ := τ) .tc (Pipeline.arrRef spec0 w) ∈ Pipeline.tailRefs (τ := τ) sig pre0 spec0 := by
  unfold Pipeline.tailRefs
  exact Finset.mem_map_of_mem _ (Finset.mem_union_left _ (Finset.mem_image_of_mem _ (Finset.mem_univ w)))

theorem v2_mem_rest : main_v2 ∈ Pipeline.restRefsP sig pre0 spec0 := by decide

theorem mem_tailRefs_v2 : Proc.devRef (τ := τ) .tc main_v2 ∈ Pipeline.tailRefs (τ := τ) sig pre0 spec0 := by
  unfold Pipeline.tailRefs
  exact Finset.mem_map_of_mem _ (Finset.mem_union_right _ v2_mem_rest)

/-- The last line touches the region's output array and the result only; -/
theorem tail_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  subst hops
  simp only [hostOps1, List.mem_cons, List.mem_nil_iff, or_false] at hop
  subst hop
  rw [StableHlo.reshape_bufs]
  intro b hb
  simp only [Finset.mem_insert, Finset.mem_singleton] at hb
  rcases hb with rfl | rfl
  · exact mem_tailRefs_of_arr 1
  · exact mem_tailRefs_v2
/-- allocates nothing; -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- and writes no array of the pipeline (it writes the result, which is none). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.reshape_writes, Finset.mem_singleton] <;> exact StableHlo.devRef_ne_of_ne (by decide)

/-! ## What the region finds -/

/-- The reshape before the region writes neither argument. -/
theorem first_not_written (b : Ref sig .tc) (hb : b ≠ main_v0) : ∀ op ∈ (hostOps0 (F := F)), Proc.devRef .tc b ∉ op.writes := by
  intro op hop
  simp only [hostOps0, List.mem_cons, List.mem_nil_iff, or_false] at hop
  subst hop
  simp only [StableHlo.reshape_writes, Finset.mem_singleton]
  exact StableHlo.devRef_ne_of_ne hb

theorem Vin_of_ne (c : Dev nD) (b : Ref sig .tc) (hb : b ≠ main_v0) : Vin m c (Proc.devRef .tc b) = m ((c : Thread nD τ).loc b) :=
  StableHlo.after_of_forall_not_mem (b := Proc.devRef .tc b) _ _ (by
    simp only [List.flatten_cons, List.flatten_nil, List.append_nil]; exact first_not_written b hb)

/-- The table the region reads is the launch's mask array. -/
theorem Vin_pre (c : Dev nD) (k : Fin 1) : Vin m c (Proc.devRef .tc (pre0.ref k)) = (adm m 0).1 k := by
  obtain rfl : c = 0 := Subsingleton.elim _ _
  fin_cases k
  exact Vin_of_ne m 0 main_arg1 (by decide)

theorem A_eq' (c : Dev nD) (w : Fin 2) : (dats m ρ 0 c).A w = Vin m c (Proc.devRef .tc (Pipeline.arrRef spec0 w)) := by
  rw [A_eq]; rfl

/-! ## The run -/

set_option backward.isDefEq.respectTransparency.types false in
/-- From any memory with zero counters every weakly fair execution of @main terminates, and every final state has the
    pipeline's arrays at what its write-backs leave of the proof data and every other unscoped buffer at what the last
    line leaves. -/
theorem run_main : θ_run defs (onTc (τ := τ) (main (F := F))) (s₀ m ρ)
    (Pipeline.FramePost (Pipeline.pin pcfgs (adm m)) (dats m ρ) 0 (Pipeline.afterTail pcfgs (adm m) (dats m ρ) 0 (Vin m) [hostOps1])) :=
  Pipeline.θ_run_frameP_around pcfgs (adm m) (dats m ρ) (0 : Fin 1) launch0 defs₀ Variants.none m ρ main
    (hbody := fun c => (body_obligation m ρ c).loose) (hshare := fun c => (dats m ρ 0 c).share_full fun _ => rfl)
    (howed := fun _ _ => rfl) (V₀ := Vin m) (opss := [hostOps1]) (hsub := tail_sub) (hfresh := tail_fresh) (hkeep := tail_keeps)
    (hmain := hmain m Variants.none) (hA := A_eq' m ρ) (hpf := Vin_pre m) (hΦ := fun _ _ => rfl)

end Cert.KernelIdeal.Flip

end
-- ==== Proof.FlipFrame.lean ====
/-
  What the run's post says of the two arguments and of the result.

  The arguments are buffers no window stages and no line writes: they end as launched. The result is the last line's
  reshape of the region's output array to 64 × 3 × 512 × 512.
-/
import proofs.«428787_j71734543777923_2_alg».proof.Proof.FlipRun

noncomputable section

namespace Cert.KernelIdeal.Flip

open Cert.KernelIdeal Cert.KernelIdeal.Gen
open Idealize.ShloMosaic Idealize.ShloMosaic.TcCoe Idealize.ShloMosaic.Tactic Idealize.ShloMosaic.StableHlo
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The last line writes the result only. -/
theorem last_not_written (b : Ref sig .tc) (hb : b ≠ main_v2) : ∀ op ∈ (hostOps1 (F := F)), Proc.devRef .tc b ∉ op.writes := by
  intro op hop
  simp only [hostOps1, List.mem_cons, List.mem_nil_iff, or_false] at hop
  subst hop
  simp only [StableHlo.reshape_writes, Finset.mem_singleton]
  exact StableHlo.devRef_ne_of_ne hb

/-- A buffer that is neither the reshaped images, nor the region's output, nor the result ends as launched. -/
theorem afterTail_of_ne (c : Dev nD) (b : Ref sig .tc) (h0 : b ≠ main_v0) (h1 : b ≠ main_v1) (h2 : b ≠ main_v2) :
    Pipeline.afterTail pcfgs (adm m) (dats m ρ) 0 (Vin m) [hostOps1] c b = m ((c : Thread nD τ).loc b) := by
  unfold Pipeline.afterTail
  rw [StableHlo.after_of_forall_not_mem (b := Proc.devRef .tc b) _ _ (by
      simp only [List.flatten_cons, List.flatten_nil, List.append_nil]; exact last_not_written b h2),
    Pipeline.withArrays_of_ne _ c _ _ b (fun w => by fin_cases w <;> [exact fun e => h0 e.symm; exact fun e => h1 e.symm])]
  exact Vin_of_ne m c b h0

theorem arg0_mem_rest : main_arg0 ∈ Pipeline.restRefs sig spec0 := by decide
theorem arg1_mem_rest : main_arg1 ∈ Pipeline.restRefs sig spec0 := by decide
theorem v2_mem_rest' : main_v2 ∈ Pipeline.restRefs sig spec0 := by decide

/-- THE FRAME: every weakly fair execution terminates, nothing faults, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_arg0 arg0_mem_rest).trans (afterTail_of_ne m ρ c main_arg0 (by decide) (by decide) (by decide)),
     ((h c).2 main_arg1 arg1_mem_rest).trans (afterTail_of_ne m ρ c main_arg1 (by decide) (by decide) (by decide))⟩)
    (run_main m ρ)

end Cert.KernelIdeal.Flip

end
-- ==== Proof.FlipValue.lean ====
/-
  What the region's output array holds after the run, as one function of the reshaped images and the mask.

  Point (b, j) writes back block (b, 0, j) of the output: rows 0..1535, columns 128 j .. 128 j + 127 of image b. When
  mask[b] is positive it holds the lane mirror of input block (b, 0, 3 - j), so column 128 j + l reads the input's column
  128 (3 - j) + 127 - l = 511 - (128 j + l); otherwise it holds input block (b, 0, j) itself. The 256 blocks tile the
  array, and every point writes its block back, so entry (b, r, w) of the array ends at the input's entry (b, r, 511 - w)
  or (b, r, w) by the sign of mask[b].
-/
import proofs.«428787_j71734543777923_2_alg».proof.Proof.FlipFrame
import Idealize.ShloMosaic.Lib.Pipeline.Value
import Idealize.ShloMosaic.Lib.ValueIdx

noncomputable section

namespace Cert.KernelIdeal.Flip

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## The grid's points and the windows' block indices -/

theorem coords_0 (t : Fin (cfgA m).N) : ((cfgA m).grid.coords t 0).val = t.val / 4 := by
  have ht : t.val < 256 := t.isLt
  show t.val / 4 % 64 = t.val / 4
  omega

theorem coords_1 (t : Fin (cfgA m).N) : ((cfgA m).grid.coords t 1).val = t.val % 4 := by
  show t.val / 1 % 4 = t.val % 4
  omega

/-- The output window's block index at a point: (b, 0, j). -/
theorem transform1_eq (i : grid0.Coords) : cc0_transform_1 i = ![(i 0).val, 0, (i 1).val] := by
  have h0 : (i 0).val < 64 := (i 0).isLt
  have h1 : (i 1).val < 4 := (i 1).isLt
  unfold cc0_transform_1
  dsimp only
  have e0 : (BitVec.ofNat 32 (i 0).val).toNat = (i 0).val := by rw [BitVec.toNat_ofNat]; exact Nat.mod_eq_of_lt (by omega)
  have e1 : (BitVec.ofNat 32 (i 1).val).toNat = (i 1).val := by rw [BitVec.toNat_ofNat]; exact Nat.mod_eq_of_lt (by omega)
  rw [e0, e1]
  rfl

theorem index_out (t : Fin (cfgA m).N) : ((cfgA m).win 1).index t = ![t.val / 4, 0, t.val % 4] := by
  show cc0_transform_1 ((cfgA m).grid.coords t) = _
  rw [transform1_eq, coords_0, coords_1]

/-- The table's index of image `b` by its coordinate. -/
theorem maskIdx_eq (i : grid0.Coords) : maskIdx i = ix1 (⟨(i 0).val, (i 0).isLt⟩ : Fin 64) :=
  funext fun a => by match a with | ⟨0, _⟩ => rfl

/-- The word the index map reads is the table's element at image `b`. -/
theorem word_eq (pf : pre0.Contents (Elt F)) (i : grid0.Coords) : word pf i = pf 0 (maskIdx i) := by
  unfold word Pipeline.Prefetch.Contents.atD
  split
  · congr 1; funext a; apply Fin.ext; fin_cases a; show k0_off1 i 0 = (i 0).val; rw [k0_off1_eq]; rfl
  · next hn => exact absurd (word_inb i) hn

theorem index_in (t : Fin (cfgA m).N) : ((cfgA m).win 0).index t = ![t.val / 4, 0, srcCol (maskAt m t) (t.val % 4)] := by
  show cc0_transform_0 k0_off1_inb numel1_S1 (pf0 m) ((cfgA m).grid.coords t) = _
  rw [transform0_eq, word_eq, coords_0, coords_1]
  rfl

/-! ## The whole-array function -/

/-- The images as the region finds them, 64 × 1536 × 512. -/
abbrev imgs (c : Dev nD) : S64x1536x512.Idx → Elt F .f32 := V m ρ c main_v0

/-- What the output array ends holding: each row of image `b` mirrored when mask[b] is positive, kept otherwise. -/
def flipRows (c : Dev nD) : S64x1536x512.Idx → Elt F .f32 := fun i =>
  if k0_cond1 (pf0 m 0 (ix1 (i 0))) = 1#1 then imgs m ρ c (ix3 (i 0) (i 1) (i 2).rev) else imgs m ρ c i

/-! ## What each point writes back -/

/-- Entry (u, r, l) of the output's block at point `t` is the array's entry (b, r, 128 j + l). -/
theorem emb_out (t : Fin (cfgA m).N) (u : Fin 1) (r : Fin 1536) (l : Fin 128) :
    (((cfgA m).win 1).blk t).view.emb (ix3 u r l)
      = ix3 (⟨t.val / 4, by have ht : t.val < 256 := t.isLt; show _ < 64; omega⟩ : Fin 64) r
          (⟨t.val % 4 * 128 + l.val, by have := l.isLt; show _ < 512; omega⟩ : Fin 512) := by
  have ho := index_out m t
  have hu : u.val = 0 := by omega
  funext a; apply Fin.ext
  match a with
  | ⟨0, _⟩ => show ((cfgA m).win 1).index t (0 : Fin 3) * 1 + 1 * u.val = t.val / 4; rw [ho]; show t.val / 4 * 1 + 1 * u.val = _; omega
  | ⟨1, _⟩ => show ((cfgA m).win 1).index t (1 : Fin 3) * 1536 + 1 * r.val = r.val; rw [ho]; show 0 * 1536 + 1 * r.val = _; omega
  | ⟨2, _⟩ => show ((cfgA m).win 1).index t (2 : Fin 3) * 128 + 1 * l.val = t.val % 4 * 128 + l.val; rw [ho]; show t.val % 4 * 128 + 1 * l.val = _; omega

/-- WHAT POINT `t` WRITES BACK is block `t` of `flipRows`. -/
theorem flushed_eq (c : Dev nD) (t : Fin (cfgA m).N) :
    (dats m ρ 0 c).flushed (1 : Fin 2) t = (((cfgA m).win 1).blk t).view.read (Elt F) (flipRows m ρ c) := by
  show ((cfgA m).win 1).cut ((cfgA m).grid.coords t) ((dats m ρ 0 c).after (1 : Fin 2) t) = _
  rw [after_1]
  have ht : t.val < 256 := t.isLt
  have hi := index_in m t
  have ho := index_out m t
  refine funext fun (j : S1x1536x128.Idx) => ?_
  obtain ⟨u, r, l, rfl⟩ : ∃ (u : Fin 1) (r : Fin 1536) (l : Fin 128), j = ix3 u r l := ⟨j 0, j 1, j 2, eq_ix3 j⟩
  have hu : u.val = 0 := by omega
  have hr : r.val < 1536 := r.isLt
  have hl : l.val < 128 := l.isLt
  have hout := emb_out m t u r l
  -- the input block's entry (0, r, l') is the array's entry (b, r, 128 j' + l')
  have hin : ∀ l' : Fin 128, (((cfgA m).win 0).blk t).view.emb (ix3 (0 : Fin 1) r l')
      = ix3 (⟨t.val / 4, by omega⟩ : Fin 64) r (⟨srcCol (maskAt m t) (t.val % 4) * 128 + l'.val, by
          have := srcCol_lt (maskAt m t) (Nat.mod_lt t.val (by decide : 0 < 4)); have := l'.isLt; omega⟩ : Fin 512) := by
    intro l'
    funext a; apply Fin.ext
    match a with
    | ⟨0, _⟩ => show ((cfgA m).win 0).index t (0 : Fin 3) * 1 + 1 * 0 = t.val / 4; rw [hi]; show t.val / 4 * 1 + 1 * 0 = _; omega
    | ⟨1, _⟩ => show ((cfgA m).win 0).index t (1 : Fin 3) * 1536 + 1 * r.val = r.val; rw [hi]; show 0 * 1536 + 1 * r.val = _; omega
    | ⟨2, _⟩ => show ((cfgA m).win 0).index t (2 : Fin 3) * 128 + 1 * l'.val = srcCol (maskAt m t) (t.val % 4) * 128 + l'.val; rw [hi]; show srcCol (maskAt m t) (t.val % 4) * 128 + 1 * l'.val = _; omega
  -- the image's mask word is the point's
  have hmask : pf0 m 0 (ix1 (⟨t.val / 4, by omega⟩ : Fin 64)) = maskAt m t := by
    unfold maskAt
    rw [maskIdx_eq]
    congr 2
    apply Fin.ext
    exact (coords_0 m t).symm
  show outBlock (maskAt m t) (inBlk m ρ c t) (ix3 u r l) = flipRows m ρ c ((((cfgA m).win 1).blk t).view.emb (ix3 u r l))
  rw [hout]
  unfold flipRows outBlock
  show (if k0_cond1 (maskAt m t) = 1#1 then mirroredBlock (inBlk m ρ c t) else k0_pay2 (inBlk m ρ c t)) (ix3 u r l)
    = if k0_cond1 (pf0 m 0 (ix1 (⟨t.val / 4, by omega⟩ : Fin 64))) = 1#1 then _ else _
  rw [hmask]
  by_cases hc : k0_cond1 (maskAt m t) = 1#1
  · rw [if_pos hc, if_pos hc]
    refine (mirroredBlock_apply (F := F) (inBlk m ρ c t) u r l).trans ?_
    show imgs m ρ c ((((cfgA m).win 0).blk t).view.emb (ix3 (0 : Fin 1) r (mirrorLane l))) = _
    rw [hin]
    congr 1
    funext a; apply Fin.ext
    match a with
    | ⟨0, _⟩ => rfl
    | ⟨1, _⟩ => rfl
    | ⟨2, _⟩ =>
      show srcCol (maskAt m t) (t.val % 4) * 128 + (127 - l.val) = 512 - (t.val % 4 * 128 + l.val + 1)
      unfold srcCol; rw [if_pos hc]; omega
  · rw [if_neg hc, if_neg hc]
    refine (congrFun (copiedBlock_eq (F := F) (inBlk m ρ c t)) (ix3 u r l)).trans ?_
    have hu0 : u = 0 := Fin.ext hu
    subst hu0
    show imgs m ρ c ((((cfgA m).win 0).blk t).view.emb (ix3 (0 : Fin 1) r l)) = _
    rw [hin]
    congr 1
    funext a; apply Fin.ext
    match a with
    | ⟨0, _⟩ => rfl
    | ⟨1, _⟩ => rfl
    | ⟨2, _⟩ =>
      show srcCol (maskAt m t) (t.val % 4) * 128 + l.val = t.val % 4 * 128 + l.val
      unfold srcCol; rw [if_neg hc]

/-! ## The blocks tile the array -/

/-- Every point writes its block back: the output's block index moves at every step. -/
theorem flush_out (t : Fin (cfgA m).N) : ((cfgA m).win 1).flush t = true := by
  have ht : t.val < 256 := t.isLt
  unfold Window.flush
  rw [show ((cfgA m).win 1).isOut = true from rfl, Bool.true_and, Bool.or_eq_true, decide_eq_true_eq, decide_eq_true_eq]
  by_cases h : t.val + 1 = 256
  · exact Or.inl h
  · refine Or.inr ⟨show t.val + 1 < 256 by omega, fun e => ?_⟩
    rw [index_out, index_out] at e
    have e0 : (t.val + 1) / 4 = t.val / 4 := congrFun e 0
    have e2 : (t.val + 1) % 4 = t.val % 4 := congrFun e 2
    omega

/-- Every entry of the array is in some point's block: entry (b, r, w) in the block of point 4 b + w / 128. -/
theorem cover (i : S64x1536x512.Idx) :
    ∃ t : Fin (cfgA m).N, ((cfgA m).win 1).flush t = true ∧ i ∈ (((cfgA m).win 1).blk t).view.set := by
  have h0 : (i 0).val < 64 := (i 0).isLt
  have h1 : (i 1).val < 1536 := (i 1).isLt
  have h2 : (i 2).val < 512 := (i 2).isLt
  refine ⟨⟨(i 0).val * 4 + (i 2).val / 128, show _ < 256 by omega⟩, flush_out m _, ?_⟩
  refine Finset.mem_map.mpr ⟨ix3 (0 : Fin 1) (i 1) (⟨(i 2).val % 128, Nat.mod_lt _ (by decide)⟩ : Fin 128), Finset.mem_univ _, ?_⟩
  refine (emb_out m _ _ _ _).trans ?_
  funext a; apply Fin.ext
  match a with
  | ⟨0, _⟩ => show ((i 0).val * 4 + (i 2).val / 128) / 4 = (i 0).val; omega
  | ⟨1, _⟩ => rfl
  | ⟨2, _⟩ => show ((i 0).val * 4 + (i 2).val / 128) % 4 * 128 + (i 2).val % 128 = (i 2).val; omega

/-- THE OUTPUT ARRAY after the run. -/
theorem final (c : Dev nD) : (dats m ρ 0 c).arrAt (1 : Fin 2) (cfgA m).N = flipRows m ρ c :=
  (dats m ρ 0 c).arrAt_eq_of_cover (1 : Fin 2) (flipRows m ρ c) (fun t _ => flushed_eq m ρ c t) (cover m)

end Cert.KernelIdeal.Flip

end
-- ==== Proof.FlipResult.lean ====
/-
  The kernel's result, entry by entry.

  The result is the output array reshaped to 64 × 3 × 512 × 512, and the images the region reads are the first argument
  reshaped to 64 × 1536 × 512, row 512 ch + h of image b being row h of channel ch. So entry (b, ch, h, w) of the result is
  the first argument's entry (b, ch, h, 511 - w) when mask[b] is positive and its entry (b, ch, h, w) otherwise.
-/
import proofs.«428787_j71734543777923_2_alg».proof.Proof.FlipValue
import Idealize.ShloMosaic.Lib.StableHlo.Run

noncomputable section

namespace Cert.KernelIdeal.Flip

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The images the region reads are the first argument reshaped. -/
theorem imgs_eq (c : Dev nD) :
    imgs m ρ c = shapeCast S64x1536x512 (m ((c : Thread nD τ).loc main_arg0)) shapeCasts_S64x3x512x512_S64x1536x512 := by
  show StableHlo.after hostOps0 (V₀ m ρ c) (Proc.devRef .tc main_v0) = _
  after_results
  rfl

/-- The result buffer after the last line: the output array reshaped. -/
theorem result_eq (c : Dev nD) :
    Pipeline.afterTail pcfgs (adm m) (dats m ρ) 0 (Vin m) [hostOps1] c main_v2
      = shapeCast S64x3x512x512 (flipRows m ρ c) shapeCasts_S64x1536x512_S64x3x512x512 := by
  unfold Pipeline.afterTail
  have hw : Pipeline.withArrays (Pipeline.pin pcfgs (adm m) 0).spec c (Vin m c)
      (fun w => (dats m ρ 0 c).arrAt w (Pipeline.pin pcfgs (adm m) 0).N) (Proc.devRef .tc main_v1) = flipRows m ρ c :=
    (Pipeline.withArrays_arr (Pipeline.pin pcfgs (adm m) 0).spec (launch0 (F := F)).win.arr_inj c (Vin m c)
      (fun w => (dats m ρ 0 c).arrAt w (Pipeline.pin pcfgs (adm m) 0).N) (1 : Fin 2)).trans (final m ρ c)
  show StableHlo.after hostOps1 _ (Proc.devRef .tc main_v2) = _
  after_results
  rw [hw]
  rfl

/-- Row `512 ch + h` of image `b` as the region reads it is row `h` of channel `ch` of the first argument. -/
theorem imgs_apply (c : Dev nD) (b : Fin 64) (ch : Fin 3) (h : Fin 512) (w : Fin 512) :
    imgs m ρ c (ix3 b (⟨ch.val * 512 + h.val, by have := ch.isLt; have := h.isLt; omega⟩ : Fin 1536) w)
      = m ((c : Thread nD τ).loc main_arg0) (ix4 b ch h w) := by
  rw [imgs_eq]
  refine shapeCast_apply _ _ _ _ ?_
  show (S64x3x512x512.rowMajor (ix4 b ch h w)).val = (S64x1536x512.rowMajor (ix3 b _ w)).val
  rw [Shape.rowMajor_val_four, Shape.rowMajor_val_three]
  show ((b.val * 3 + ch.val) * 512 + h.val) * 512 + w.val = (b.val * 1536 + (ch.val * 512 + h.val)) * 512 + w.val
  omega

/-- THE RESULT, entry by entry: the first argument's entry at the mirrored column when mask[b] is positive, at the same
    column otherwise. -/
theorem result_apply (c : Dev nD) (b : Fin 64) (ch : Fin 3) (h : Fin 512) (w : Fin 512) :
    shapeCast S64x3x512x512 (flipRows m ρ c) shapeCasts_S64x1536x512_S64x3x512x512 (ix4 b ch h w)
      = if k0_cond1 (pf0 m 0 (ix1 b)) = 1#1 then m ((c : Thread nD τ).loc main_arg0) (ix4 b ch h w.rev)
        else m ((c : Thread nD τ).loc main_arg0) (ix4 b ch h w) := by
  refine (shapeCast_apply (flipRows m ρ c) _ (ix4 b ch h w)
    (ix3 b (⟨ch.val * 512 + h.val, by have := ch.isLt; have := h.isLt; omega⟩ : Fin 1536) w) ?_).trans ?_
  · show (S64x1536x512.rowMajor (ix3 b _ w)).val = (S64x3x512x512.rowMajor (ix4 b ch h w)).val
    rw [Shape.rowMajor_val_four, Shape.rowMajor_val_three]
    show (b.val * 1536 + (ch.val * 512 + h.val)) * 512 + w.val = ((b.val * 3 + ch.val) * 512 + h.val) * 512 + w.val
    omega
  · show (if k0_cond1 (pf0 m 0 (ix1 b)) = 1#1 then imgs m ρ c (ix3 b _ w.rev) else imgs m ρ c (ix3 b _ w)) = _
    rw [imgs_apply, imgs_apply]

/-- THE VALUE RUN: every weakly fair execution terminates with the result at the output array reshaped and both
    arguments as launched. -/
theorem run_value : θ_run defs (onTc (τ := τ) (main (F := F))) ⟨m, fun _ => 0, ρ⟩ (fun r => ∀ c : Dev nD,
      r.2.mem ((c.tc : Thread nD τ).loc main_v2) = shapeCast S64x3x512x512 (flipRows m ρ c) shapeCasts_S64x1536x512_S64x3x512x512
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v2 v2_mem_rest').trans (result_eq m ρ c),
     ((h c).2 main_arg0 arg0_mem_rest).trans (afterTail_of_ne m ρ c main_arg0 (by decide) (by decide) (by decide)),
     ((h c).2 main_arg1 arg1_mem_rest).trans (afterTail_of_ne m ρ c main_arg1 (by decide) (by decide) (by decide))⟩)
    (run_main m ρ)

end Cert.KernelIdeal.Flip

end
-- ==== Proof.RefFlip.lean ====
/-
  The reference, read at an index.

  The reference mirrors the whole image array along its last axis, compares each mask word with zero as signed
  integers, and selects per image: entry (b, ch, h, w) of the result is entry (b, ch, h, 511 - w) of the input when
  mask[b] is positive and entry (b, ch, h, w) otherwise.
-/
import proofs.«428787_j71734543777923_2_alg».proof.Proof.Gen.ReferenceIdeal.Read
import Idealize.ShloMosaic.Lib.ValueIdx

noncomputable section

namespace Cert.ReferenceIdeal.Flip

open Cert.ReferenceIdeal Cert.ReferenceIdeal.Gen Cert.ReferenceIdeal.Read
open Idealize.ShloMosaic Idealize.ShloMosaic.ValueIdx

variable {F : FTy → Type} [FloatOps F]

/-- The reference's result at an entry: the mirrored column when the image's mask word is positive. -/
theorem ref_apply (x0 : (⟨S64x3x512x512, .f32⟩ : BufTy).Contents (Elt F)) (x1 : (⟨S64, .i32⟩ : BufTy).Contents (Elt F))
    (b : Fin 64) (ch : Fin 3) (h : Fin 512) (w : Fin 512) :
    val_main_v4 (F := F) x0 x1 (ix4 b ch h w)
      = if IntOp.cmpi .sgt (x1 (ix1 b)) 0#32 = 1#1 then x0 (ix4 b ch h w.rev) else x0 (ix4 b ch h w) := by
  rw [val_main_v4_apply, val_main_call0_v0_apply, val_main_v3_apply, val_main_v2_apply, val_main_v1_apply, val_main_c_apply]
  have hi : idx_main_v3 (idx_main_call0_v0 (ix4 b ch h w)) = ix1 b :=
    funext fun a => Fin.ext (by match a with | ⟨0, _⟩ => rfl)
  rw [hi]
  have hr : val_main_v0 (F := F) x0 (ix4 b ch h w) = x0 (ix4 b ch h w.rev) := by
    unfold val_main_v0 Host.reverse
    congr 1
    funext a
    match a with
    | ⟨0, _⟩ => rfl
    | ⟨1, _⟩ => rfl
    | ⟨2, _⟩ => rfl
    | ⟨3, _⟩ => rfl
  rw [hr]
  rfl

end Cert.ReferenceIdeal.Flip

end
-- ==== Proof.lean ====
/-
  A per-image conditional mirror of the image width, against its reference.

  Both programs take 64 images of 3 × 512 × 512 numbers and 64 mask words. The reference mirrors every image along its
  last axis and then selects, image by image, the mirrored image where the mask word is positive as a signed integer and
  the image itself elsewhere. The kernel views each image as 1536 rows of 512 columns and runs a 64 × 4 grid; at point
  (b, j) it fetches the block of columns 128 j' .. 128 j' + 127 of image b, where j' = 3 - j if mask[b] is positive and
  j' = j otherwise (the block index reads the mask table), and writes columns 128 j .. 128 j + 127 of the output: the
  fetched block with its 128 lanes mirrored in the first case, the fetched block itself in the second. Mirroring the four
  blocks' order and each block's lanes mirrors the 512 columns: column w of the output reads column 511 - w of the input.
  So entry (b, ch, h, w) of either result is the input's entry (b, ch, h, 511 - w) when mask[b] is positive and its entry
  (b, ch, h, w) otherwise: the two programs compute one function, a permutation and a selection of the inputs' entries,
  and no law of arithmetic (and so no finiteness of the inputs) is used.

  The frames: the kernel's grid run terminates and faults nowhere whatever the mask holds, because the block index read
  off the table is one of 0..3 at every point; the idealized kernel's text is the kernel's (the ideal pass rewrote
  nothing), so one argument, stated for any float instance, serves both; the reference's frame is its run with the
  result dropped.
-/
import proofs.«428787_j71734543777923_2_alg».proof.Defs
import proofs.«428787_j71734543777923_2_alg».proof.Proof.Gen.Kernel
import proofs.«428787_j71734543777923_2_alg».proof.Proof.Gen.KernelIdeal
import proofs.«428787_j71734543777923_2_alg».proof.Proof.Gen.ReferenceIdeal
import proofs.«428787_j71734543777923_2_alg».proof.Proof.Gen.Pre_finite_inputs
import proofs.«428787_j71734543777923_2_alg».proof.Proof.Gen.ReferenceIdeal.Run
import proofs.«428787_j71734543777923_2_alg».proof.Proof.Gen.ReferenceIdeal.Read
import proofs.«428787_j71734543777923_2_alg».proof.Proof.WFlipFrame
import proofs.«428787_j71734543777923_2_alg».proof.Proof.FlipResult
import proofs.«428787_j71734543777923_2_alg».proof.Proof.RefFlip

noncomputable section

namespace Cert.Proof

open Idealize.ShloMosaic Idealize.ShloMosaic.TcCoe Idealize.ShloMosaic.ValueIdx Idealize.SL.Sem

/-- The kernel's test "the word is positive" is the reference's signed comparison of the word with zero. -/
theorem positive_iff (x : BitVec 32) : Cert.KernelIdeal.k0_cond1 x = 1#1 ↔ IntOp.cmpi .sgt x 0#32 = 1#1 := by
  dsimp only [Cert.KernelIdeal.k0_cond1, Scalar.cmpi]
  generalize IntOp.cmpi .sgt x 0#32 = b
  revert b; decide

theorem frame_kernel : Cert.frame_Kernel := fun m ρ _ => Cert.Kernel.Flip.frame (F := Bits) m ρ

theorem frame_kernelIdeal : Cert.frame_KernelIdeal := fun m ρ _ => Cert.KernelIdeal.Flip.frame (F := Ideal) m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same array: entry by entry the input at the mirrored or the same column, by the sign of
    the image's mask word. -/
theorem algebraic : Cert.algebraic_KernelIdeal_ReferenceIdeal := by
  intro m ρ m' ρ' _ hagree
  refine ⟨fun c => shapeCast Cert.KernelIdeal.S64x3x512x512 (Cert.KernelIdeal.Flip.flipRows m ρ c)
      Cert.KernelIdeal.Gen.shapeCasts_S64x1536x512_S64x3x512x512,
    Cert.KernelIdeal.Flip.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, (hagree c).1, (hagree c).2]
  obtain rfl : c = 0 := Subsingleton.elim _ _
  funext i
  obtain ⟨b, ch, h, w, rfl⟩ : ∃ (b : Fin 64) (ch : Fin 3) (h : Fin 512) (w : Fin 512), i = ix4 b ch h w :=
    ⟨i 0, i 1, i 2, i 3, eq_ix4 i⟩
  refine (Cert.ReferenceIdeal.Flip.ref_apply _ _ b ch h w).trans ?_
  refine Eq.trans ?_ (Cert.KernelIdeal.Flip.result_apply m ρ 0 b ch h w).symm
  exact if_congr (positive_iff _).symm rfl rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
